-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x16 : Shape := ⟨2, ![1200000, 16]⟩
abbrev S2x1200000 : Shape := ⟨2, ![2, 1200000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x16 : S_.BroadcastsInDim S1200000x16 (![] : Fin 0 → Fin S1200000x16.rank)
  reducesTo_S1200000x16_S_d0_1 : S1200000x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : FVec F S1200000x16 .f32) (main_arg2 : IVec S2x1200000 32) (main_arg3 : FVec F S80x64 .f32) (main_arg4 : FVec F S64 .f32) (main_arg5 : FVec F S64x64 .f32) (main_arg6 : FVec F S64 .f32) (main_arg7 : FVec F S128x64 .f32) (main_arg8 : FVec F S64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x16 .f32 := Host.absf main_arg1
  let main_cst_0 : FVec F S_ .f32 := constant S_ .f32 0x7F800000#32
  let main_v5 : FVec F S1200000x16 .f32 := broadcastInDim S1200000x16 ![] bcast_S_S1200000x16 main_cst_0
  let main_v6 : IVec S1200000x16 1 := cmpf .olt main_v4 main_v5
  let main_c_1 : IVec S_ 1 := constantI S_ 1 1#1
  let main_v7 : IVec S_ 1 := (fun x v => Host.reduce IntOp.andi x v reducesTo_S1200000x16_S_d0_1 h_S_) main_v6 main_c_1
  let main_v8 : IVec S_ 1 := andi main_v3 main_v7
  let main_v9 : FVec F S80x64 .f32 := Host.absf main_arg3
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S1200000x16 : Shape := ⟨2, ![1200000, 16]⟩
abbrev S2x1200000 : Shape := ⟨2, ![2, 1200000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S12000x64 : Shape := ⟨2, ![12000, 64]⟩
abbrev S12000x16 : Shape := ⟨2, ![12000, 16]⟩
abbrev S12000x80 : Shape := ⟨2, ![12000, 80]⟩
abbrev S1x64 : Shape := ⟨2, ![1, 64]⟩
abbrev S10000x64 : Shape := ⟨2, ![10000, 64]⟩
abbrev S10000x128 : Shape := ⟨2, ![10000, 128]⟩
abbrev S10000 : Shape := ⟨1, ![10000]⟩
abbrev S10000x1 : Shape := ⟨2, ![10000, 1]⟩

abbrev nBuf : Space → Nat
  | .hbm => 30
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1200000x16, .f32⟩
  | .hbm, ⟨2, _⟩ => ⟨S2x1200000, .i32⟩
  | .hbm, ⟨3, _⟩ => ⟨S80x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S100000x64, .f32⟩
  | .local _ .vmem, ⟨0, _⟩ => ⟨S12000x64, .f32⟩
  | .local _ .vmem, ⟨1, _⟩ => ⟨S12000x64, .f32⟩
  | .local _ .vmem, ⟨2, _⟩ => ⟨S12000x16, .f32⟩
  | .local _ .vmem, ⟨3, _⟩ => ⟨S12000x16, .f32⟩
  | .local _ .vmem, ⟨4, _⟩ => ⟨S80x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S12000x64, .f32⟩
  | .local _ .vmem, ⟨9, _⟩ => ⟨S12000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S128x64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S12000x16_S12000x16_0_0 : ∀ a, (![0, 0] : Fin 2 → Nat) a + S12000x16.size a ≤ S12000x16.size a
  h_S12000x16 : 0 < S12000x16.numel
  concatenates_S12000x64_S12000x16_S12000x80_d1 : Shape.Concatenates [S12000x64, S12000x16] S12000x80 1
  bitsLt_bf16_f32 : FTy.bits .bf16 < FTy.bits .f32
  inb_S80x64_S80x64_0_0 : ∀ a, (![0, 0] : Fin 2 → Nat) a + S80x64.size a ≤ S80x64.size a
  h_S80x64 : 0 < S80x64.numel
  inb_S64_S64_0 : ∀ a, (![0] : Fin 1 → Nat) a + S64.size a ≤ S64.size a
  h_S64 : 0 < S64.numel
  shapeCasts_S64_S1x64 : S64.ShapeCasts S1x64
  broadcasts_S1x64_S12000x64 : S1x64.Broadcasts S12000x64
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1200000x1_S1200000x64_1_0_n_n_0_1_164_wf : GatherDims.WF S100000x64 S1200000x1 S1200000x64 [1] [0] [] [0] [] 1 ![1, 64]
  dot_S12000x80_S80x64_S12000x64_1_0_0_1_n_n_wf : DotDims.WF S12000x80 S80x64 S12000x64 [1] [0] [0] [1] [] []
  dot_S12000x64_S64x64_S12000x64_1_0_0_1_n_n_wf : DotDims.WF S12000x64 S64x64 S12000x64 [1] [0] [0] [1] [] []
  scatter_S100000x64_S1200000x1_S1200000x64_1_0_0_1_wf : ScatterDims.WF S100000x64 S1200000x1 S1200000x64 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x64.size a ≤ S1200000x64.size a
  hwx0_0 : ∀ i : grid0.Coords, EltTy.bits .f32 = 32 ∨ (Rect.block (s := S1200000x64) S12000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x16.size a ≤ S1200000x16.size a
  hwx0_1 : ∀ i : grid0.Coords, EltTy.bits .f32 = 32 ∨ (Rect.block (s := S1200000x16) S12000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x64.size a ≤ S80x64.size a
  hwx0_2 : ∀ i : grid0.Coords, EltTy.bits .f32 = 32 ∨ (Rect.block (s := S80x64) S80x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S12000x64.size a ≤ S1200000x64.size a
  hwx0_6 : ∀ i : grid0.Coords, EltTy.bits .f32 = 32 ∨ (Rect.block (s := S1200000x64) S12000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S12000x80_S80x64_S12000x64_1_0_0_1_n_n : DotDims S12000x80 S80x64 S12000x64 where
  lhsContracting := [1]
  rhsContracting := [0]
  lhsNonContracting := [0]
  rhsNonContracting := [1]
  lhsBatch := []
  rhsBatch := []
  wf := dot_S12000x80_S80x64_S12000x64_1_0_0_1_n_n_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v10) S12000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S80x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S12000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x16 : Shape := ⟨2, ![1200000, 16]⟩
abbrev S2x1200000 : Shape := ⟨2, ![2, 1200000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1200000x80 : Shape := ⟨2, ![1200000, 80]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x16, .f32⟩
  | .hbm, ⟨2, _⟩ => ⟨S2x1200000, .i32⟩
  | .hbm, ⟨3, _⟩ => ⟨S80x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S1200000x80, .f32⟩
  | .hbm, ⟨25, _⟩ => ⟨S1200000x64, .f32⟩
  | .hbm, ⟨26, _⟩ => ⟨S1x64, .f32⟩
  | .hbm, ⟨27, _⟩ => ⟨S1200000x64, .f32⟩
  | .hbm, ⟨28, _⟩ => ⟨S1200000x64, .f32⟩
  | .hbm, ⟨29, _⟩ => ⟨S1200000x64, .f32⟩
  | .hbm, ⟨30, _⟩ => ⟨S1200000x64, .f32⟩
  | .hbm, ⟨31, _⟩ => ⟨S_, .f32⟩
  | .hbm, ⟨32, _⟩ => ⟨S1200000x64, .f32⟩
  | .hbm, ⟨33, _⟩ => ⟨S1200000x64, .f32⟩
  | .hbm, ⟨34, _⟩ => ⟨S1200000x64, .f32⟩
  | .hbm, ⟨35, _⟩ => ⟨S_, .f32⟩
  | .hbm, ⟨36, _⟩ => ⟨S1200000x64, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S1200000x64, .f32⟩
  | .hbm, ⟨41, _⟩ => ⟨S1200000x64, .f32⟩
  | .hbm, ⟨42, _⟩ => ⟨S_, .f32⟩
  | .hbm, ⟨43, _⟩ => ⟨S1200000x64, .f32⟩
  | .hbm, ⟨44, _⟩ => ⟨S1200000x64, .f32⟩
  | .hbm, ⟨45, _⟩ => ⟨S1200000x64, .f32⟩
  | .hbm, ⟨46, _⟩ => ⟨S1200000x64, .f32⟩
  | .hbm, ⟨47, _⟩ => ⟨S1x64, .f32⟩
  | .hbm, ⟨48, _⟩ => ⟨S1200000x64, .f32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x128, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000, .f32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x16_S1200000x80_d1 : Shape.Concatenates [S1200000x64, S1200000x16] S1200000x80 1
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  dot_S1200000x80_S80x64_S1200000x64_1_0_0_1_n_n_wf : DotDims.WF S1200000x80 S80x64 S1200000x64 [1] [0] [0] [1] [] []
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x80_S80x64_S1200000x64_1_0_0_1_n_n : DotDims S1200000x80 S80x64 S1200000x64 where
  lhsContracting := [1]
  rhsContracting := [0]
  lhsNonContracting := [0]
  rhsNonContracting := [1]
  lhsBatch := []
  rhsBatch := []
  wf := dot_S1200000x80_S80x64_S1200000x64_1_0_0_1_n_n_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostReads.lean ====
/-
  What the host operations of the idealized kernel's @main leave in the buffers the two regions read, as functions of the
  argument ARRAYS.

  Before the edge region: the source indices (row 0 of the index array, a negative index counted from the end) gather the node
  features into one row per edge; the destination indices are row 1. Between the regions: the messages are added up per
  destination node, from zero. No host operation writes an argument, so each argument array reads as launched at both regions.
  The gather and the scatter-add stay unopened: the reference applies the same two operations to the same index array.
-/
import proofs.«136936_j83348135346321_1_alg».proof.Proof.Gen.KernelIdeal.Frame
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]

/-- Row 0 of the index array as a flat vector: each edge's source node. -/
def srcIdx (a2 : (⟨S2x1200000, .i32⟩ : BufTy).Contents (Elt F)) : (⟨S1200000, .i32⟩ : BufTy).Contents (Elt F) :=
  shapeCast S1200000 (extractStridedSlice S1x1200000 ![0, 0] a2 slices_S2x1200000_S1x1200000_0_0) shapeCasts_S1x1200000_S1200000

/-- Row 1 of the index array as a flat vector: each edge's destination node. -/
def dstIdx (a2 : (⟨S2x1200000, .i32⟩ : BufTy).Contents (Elt F)) : (⟨S1200000, .i32⟩ : BufTy).Contents (Elt F) :=
  shapeCast S1200000 (extractStridedSlice S1x1200000 ![1, 0] a2 slices_S2x1200000_S1x1200000_1_0) shapeCasts_S1x1200000_S1200000

/-- One row per edge: the node features at the edge's source index, 100000 added to a negative index first. -/
def gatherOf (a0 : (⟨S100000x64, .f32⟩ : BufTy).Contents (Elt F)) (a2 : (⟨S2x1200000, .i32⟩ : BufTy).Contents (Elt F)) :
    (⟨S1200000x64, .f32⟩ : BufTy).Contents (Elt F) :=
  Host.gather gather_S100000x64_S1200000x1_S1200000x64_1_0_n_n_0_1_164 a0
    (broadcastInDim S1200000x1 ![0] bcast_S1200000_S1200000x1_0
      (select (cmpi .slt (srcIdx a2) (broadcastInDim S1200000 ![] bcast_S_S1200000 (constantI S_ 32 0#32)))
        (addi (srcIdx a2) (broadcastInDim S1200000 ![] bcast_S_S1200000 (constantI S_ 32 100000#32))) (srcIdx a2)))

/-- One row per node: the rows of msg added up at their edges' destination indices, from zero. -/
def scatterOf (a2 : (⟨S2x1200000, .i32⟩ : BufTy).Contents (Elt F)) (msg : (⟨S1200000x64, .f32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 (dstIdx a2)) msg

variable (m : (ℓ : Loc nD τ sig) → Buf (Elt F) ℓ) (ρ : Dev nD → PrngReg)

/-! ## At the edge region's entry -/

/-- The gathered source rows. -/
theorem W1_v10 (c : Dev nD) : W1 m ρ c (Proc.devRef .tc main_v10)
    = gatherOf (m ((c : Thread nD τ).loc main_arg0)) (m ((c : Thread nD τ).loc main_arg2)) := by
  show StableHlo.after hostOps0 (W0 m ρ c) (Proc.devRef .tc main_v10) = _
  after_results
  rfl

/-- The destination indices. -/
theorem W1_v3 (c : Dev nD) : W1 m ρ c (Proc.devRef .tc main_v3) = dstIdx (m ((c : Thread nD τ).loc main_arg2)) := by
  show StableHlo.after hostOps0 (W0 m ρ c) (Proc.devRef .tc main_v3) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_arg9 (c : Dev nD) : W1 m ρ c (Proc.devRef .tc main_arg9) = m ((c : Thread nD τ).loc main_arg9) := by
  show StableHlo.after hostOps0 (W0 m ρ c) (Proc.devRef .tc main_arg9) = _
  after_results

theorem W1_arg10 (c : Dev nD) : W1 m ρ c (Proc.devRef .tc main_arg10) = m ((c : Thread nD τ).loc main_arg10) := by
  show StableHlo.after hostOps0 (W0 m ρ c) (Proc.devRef .tc main_arg10) = _
  after_results

/-! ## At the node region's entry -/

/-- The aggregate: the scatter-add of the edge region's output array by the destination indices, both as the edge region
    left them. -/
theorem W3_v14 (c : Dev nD) : W3 m ρ c (Proc.devRef .tc main_v14)
    = Host.scatterAdd scatter_S100000x64_S1200000x1_S1200000x64_1_0_0_1
        (broadcastInDim S100000x64 ![] bcast_S_S100000x64 (constant S_ .f32 0x00000000#32))
        (broadcastInDim S1200000x1 ![0] bcast_S1200000_S1200000x1_0 (W2 m ρ c (Proc.devRef .tc main_v3)))
        (W2 m ρ c (Proc.devRef .tc main_v11)) := by
  show StableHlo.after hostOps1 (W2 m ρ c) (Proc.devRef .tc main_v14) = _
  after_results

theorem W3_arg0 (c : Dev nD) : W3 m ρ c (Proc.devRef .tc main_arg0) = W2 m ρ c (Proc.devRef .tc main_arg0) := by
  show StableHlo.after hostOps1 (W2 m ρ c) (Proc.devRef .tc main_arg0) = _
  after_results

theorem W3_arg7 (c : Dev nD) : W3 m ρ c (Proc.devRef .tc main_arg7) = W2 m ρ c (Proc.devRef .tc main_arg7) := by
  show StableHlo.after hostOps1 (W2 m ρ c) (Proc.devRef .tc main_arg7) = _
  after_results

theorem W3_arg8 (c : Dev nD) : W3 m ρ c (Proc.devRef .tc main_arg8) = W2 m ρ c (Proc.devRef .tc main_arg8) := by
  show StableHlo.after hostOps1 (W2 m ρ c) (Proc.devRef .tc main_arg8) = _
  after_results

theorem W3_arg9 (c : Dev nD) : W3 m ρ c (Proc.devRef .tc main_arg9) = W2 m ρ c (Proc.devRef .tc main_arg9) := by
  show StableHlo.after hostOps1 (W2 m ρ c) (Proc.devRef .tc main_arg9) = _
  after_results

theorem W3_arg10 (c : Dev nD) : W3 m ρ c (Proc.devRef .tc main_arg10) = W2 m ρ c (Proc.devRef .tc main_arg10) := by
  show StableHlo.after hostOps1 (W2 m ρ c) (Proc.devRef .tc main_arg10) = _
  after_results

end Cert.KernelIdeal.HostReads

end
-- ==== Proof.Spec.lean ====
/-
  The two dense stages of a message-passing layer, as functions on the extended reals.

  One EDGE's message: the row x of 80 entries (the source node's 64 features followed by the edge's 16) goes through
  x · W1 + b1, the tanh form of GELU, then · W2 + b2. One NODE's update: the row of 128 entries (the node's 64
  features followed by its 64 aggregated messages) goes through · W3 + b3, a layer normalisation over the 64 outputs
  (mean and variance as sums divided by 64, the reciprocal square root of the variance plus a small constant, then scale and
  bias), the same GELU, and the node's own feature is added back.

  The float literals stay the binary words both programs print (0.5, 1, sqrt(2/π), 0.044715, 64, 1e-6 as f32):
  the same word on both sides is never evaluated. Sums are finite sums on the extended reals, so their order and grouping do
  not matter; the one algebraic law the two programs differ by is the cube, h · (h · h) against (h · h) · h, which is
  commutativity of the product and needs no finiteness.

  edgeMsgs and nodeOut are the two stages over whole arrays: row e of the messages depends on row e of the gathered
  features and of the edge features only, row v of the output on row v of the node features and of the aggregate only.
-/
import Idealize.ShloMosaic.PureOps.Ideal
import Idealize.ShloMosaic.Lib.ValueIdx

noncomputable section

open scoped BigOperators

namespace Cert.Spec

open Idealize.ShloMosaic Idealize.ShloMosaic.ValueIdx

/-- The tanh form of GELU, h · (½ · (1 + tanh (c₂ · (h + c₁ · h³)))), with the cube written h · (h · h). -/
def gelu (h : EReal) : EReal :=
  h * (Ideal.ofBits .f32 0x3F000000#32 * (Ideal.ofBits .f32 0x3F800000#32 +
    Ideal.tanh (Ideal.ofBits .f32 0x3F4C422A#32 * (h + Ideal.ofBits .f32 0x3D372713#32 * (h * (h * h))))))

/-- The same with the cube written (h · h) · h: the product of extended reals is commutative. -/
theorem gelu_cube_left (h : EReal) :
    h * (Ideal.ofBits .f32 0x3F000000#32 * (Ideal.ofBits .f32 0x3F800000#32 +
      Ideal.tanh (Ideal.ofBits .f32 0x3F4C422A#32 * (h + Ideal.ofBits .f32 0x3D372713#32 * ((h * h) * h))))) = gelu h := by
  unfold gelu; rw [mul_comm (h * h) h]

/-- A row of 80: 64 entries followed by 16. -/
def cat80 (x : Fin 64 → EReal) (y : Fin 16 → EReal) (k : Fin 80) : EReal :=
  if h : k.val < 64 then x ⟨k.val, h⟩ else y ⟨k.val - 64, by have := k.isLt; omega⟩

/-- A row of 128: 64 entries followed by 64. -/
def cat128 (x : Fin 64 → EReal) (y : Fin 64 → EReal) (k : Fin 128) : EReal :=
  if h : k.val < 64 then x ⟨k.val, h⟩ else y ⟨k.val - 64, by have := k.isLt; omega⟩

/-- x · W + b at output n, for a row of K entries. -/
def affine {K : Nat} (x : Fin K → EReal) (W : Fin K → Fin 64 → EReal) (b : Fin 64 → EReal) (n : Fin 64) : EReal :=
  (∑ k : Fin K, x k * W k n) + b n

/-- One edge's message at output j: gelu (x · W1 + b1) · W2 + b2. -/
def edgeRow (x : Fin 80 → EReal) (W1 : Fin 80 → Fin 64 → EReal) (b1 : Fin 64 → EReal)
    (W2 : Fin 64 → Fin 64 → EReal) (b2 : Fin 64 → EReal) (j : Fin 64) : EReal :=
  affine (fun n => gelu (affine x W1 b1 n)) W2 b2 j

/-- The mean of 64 entries: their sum divided by the f32 word of 64. -/
def mean64 (h : Fin 64 → EReal) : EReal :=
  Ideal.div (∑ n : Fin 64, h n) (Ideal.ofBits .f32 0x42800000#32)

/-- Layer normalisation of a row of 64 at entry j: (h j − μ) · rsqrt (σ² + ε) · scale j + bias j, with μ the mean
    and σ² the mean of the squared deviations. -/
def lnorm (h : Fin 64 → EReal) (scale bias : Fin 64 → EReal) (j : Fin 64) : EReal :=
  ((h j - mean64 h) * Ideal.rsqrt (mean64 (fun n => (h n - mean64 h) * (h n - mean64 h)) + Ideal.ofBits .f32 0x358637BD#32))
    * scale j + bias j

/-- One node's update at output j: gelu (lnorm (x · W3 + b3)) + res, res the node's own feature j. -/
def nodeRow (x : Fin 128 → EReal) (W3 : Fin 128 → Fin 64 → EReal) (b3 scale bias : Fin 64 → EReal) (res : EReal)
    (j : Fin 64) : EReal :=
  gelu (lnorm (affine x W3 b3) scale bias j) + res

/-- Every edge's message: row e from row e of the gathered source features and of the edge features. Generic in the
    number of rows, so that it reads a block of rows as well as the whole array. -/
def edgeMsgs {E : Nat} (src : (⟨2, ![E, 64]⟩ : Shape).Idx → EReal) (edge : (⟨2, ![E, 16]⟩ : Shape).Idx → EReal)
    (W1 : (⟨2, ![80, 64]⟩ : Shape).Idx → EReal) (b1 : (⟨1, ![64]⟩ : Shape).Idx → EReal)
    (W2 : (⟨2, ![64, 64]⟩ : Shape).Idx → EReal) (b2 : (⟨1, ![64]⟩ : Shape).Idx → EReal) :
    (⟨2, ![E, 64]⟩ : Shape).Idx → EReal :=
  fun i => edgeRow (cat80 (fun k => src (ix2 (i 0) k)) (fun k => edge (ix2 (i 0) k)))
    (fun k n => W1 (ix2 k n)) (fun n => b1 (ix1 n)) (fun n j => W2 (ix2 n j)) (fun n => b2 (ix1 n)) (i 1)

/-- Every node's update: row v from row v of the node features and of the aggregated messages. Generic in the number
    of rows, as edgeMsgs. -/
def nodeOut {N : Nat} (node : (⟨2, ![N, 64]⟩ : Shape).Idx → EReal) (agg : (⟨2, ![N, 64]⟩ : Shape).Idx → EReal)
    (W3 : (⟨2, ![128, 64]⟩ : Shape).Idx → EReal) (b3 scale bias : (⟨1, ![64]⟩ : Shape).Idx → EReal) :
    (⟨2, ![N, 64]⟩ : Shape).Idx → EReal :=
  fun i => nodeRow (cat128 (fun k => node (ix2 (i 0) k)) (fun k => agg (ix2 (i 0) k)))
    (fun k n => W3 (ix2 k n)) (fun n => b3 (ix1 n)) (fun n => scale (ix1 n)) (fun n => bias (ix1 n)) (node i) (i 1)

/-- A row of the messages depends only on the same row of the two inputs: if row p of a block of rows holds what row r
    of the whole arrays holds, the block's messages at row p are the whole arrays' at row r. -/
theorem edgeMsgs_row {E B : Nat} (src : (⟨2, ![E, 64]⟩ : Shape).Idx → EReal) (edge : (⟨2, ![E, 16]⟩ : Shape).Idx → EReal)
    (srcB : (⟨2, ![B, 64]⟩ : Shape).Idx → EReal) (edgeB : (⟨2, ![B, 16]⟩ : Shape).Idx → EReal)
    (W1 : (⟨2, ![80, 64]⟩ : Shape).Idx → EReal) (b1 : (⟨1, ![64]⟩ : Shape).Idx → EReal)
    (W2 : (⟨2, ![64, 64]⟩ : Shape).Idx → EReal) (b2 : (⟨1, ![64]⟩ : Shape).Idx → EReal) (r : Fin E) (p : Fin B)
    (hs : ∀ k, srcB (ix2 p k) = src (ix2 r k)) (he : ∀ k, edgeB (ix2 p k) = edge (ix2 r k)) (q : Fin 64) :
    edgeMsgs srcB edgeB W1 b1 W2 b2 (ix2 p q) = edgeMsgs src edge W1 b1 W2 b2 (ix2 r q) := by
  show edgeRow (cat80 (fun k => srcB (ix2 p k)) (fun k => edgeB (ix2 p k))) _ _ _ _ q
    = edgeRow (cat80 (fun k => src (ix2 r k)) (fun k => edge (ix2 r k))) _ _ _ _ q
  rw [funext hs, funext he]

/-- The same for the node update: row p of a block against row r of the whole arrays. -/
theorem nodeOut_row {N B : Nat} (node agg : (⟨2, ![N, 64]⟩ : Shape).Idx → EReal)
    (nodeB aggB : (⟨2, ![B, 64]⟩ : Shape).Idx → EReal)
    (W3 : (⟨2, ![128, 64]⟩ : Shape).Idx → EReal) (b3 scale bias : (⟨1, ![64]⟩ : Shape).Idx → EReal) (r : Fin N) (p : Fin B)
    (hn : ∀ k, nodeB (ix2 p k) = node (ix2 r k)) (ha : ∀ k, aggB (ix2 p k) = agg (ix2 r k)) (q : Fin 64) :
    nodeOut nodeB aggB W3 b3 scale bias (ix2 p q) = nodeOut node agg W3 b3 scale bias (ix2 r q) := by
  show nodeRow (cat128 (fun k => nodeB (ix2 p k)) (fun k => aggB (ix2 p k))) _ _ _ _ (nodeB (ix2 p q)) q
    = nodeRow (cat128 (fun k => node (ix2 r k)) (fun k => agg (ix2 r k))) _ _ _ _ (node (ix2 r q)) q
  rw [funext hn, funext ha, hn q]

end Cert.Spec

end
-- ==== Proof.EdgeBody.lean ====
/-
  The edge kernel's body, read at the extended reals, IS the edge message of the specification over its blocks: from a
  block of 12000 gathered source rows and the matching 12000 edge rows it stores, at row p and column q,
  gelu ((x · W1 + b1)) · W2 + b2 with x the 80 entries of row p (64 source features, then 16 edge features).
  The two matrix products are sums over the one contracted axis into a zero accumulator; the casts to bf16 and back are the
  identity on the extended reals; the biases are a row broadcast down the block.
-/
import proofs.«136936_j83348135346321_1_alg».proof.Proof.Gen.KernelIdeal.Skeleton
import proofs.«136936_j83348135346321_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EdgeBody

open Cert.KernelIdeal Cert.KernelIdeal.Gen Idealize.ShloMosaic Idealize.ShloMosaic.ValueIdx

/-- First product, left operand, axis 0 (free): the output's row. -/
theorem lhs1_0 (i : S12000x64.Idx) (q : dot_S12000x80_S80x64_S12000x64_1_0_0_1_n_n.contr.Idx) :
    (dot_S12000x80_S80x64_S12000x64_1_0_0_1_n_n.lhsIdx i q 0).val = (i 0).val := by
  unfold DotDims.lhsIdx
  rw [dif_neg (show ¬(0 : Fin S12000x80.rank) ∈ dot_S12000x80_S80x64_S12000x64_1_0_0_1_n_n.lhsBatch by decide), dif_pos (show (0 : Fin S12000x80.rank) ∈ dot_S12000x80_S80x64_S12000x64_1_0_0_1_n_n.lhsNonContracting by decide)]
  rfl
/-- Left operand, axis 1 (contracted): the contraction position. -/
theorem lhs1_1 (i : S12000x64.Idx) (q : dot_S12000x80_S80x64_S12000x64_1_0_0_1_n_n.contr.Idx) :
    (dot_S12000x80_S80x64_S12000x64_1_0_0_1_n_n.lhsIdx i q 1).val = (q ⟨0, by decide⟩).val :=
  dot_S12000x80_S80x64_S12000x64_1_0_0_1_n_n.lhsIdx_val_of_single rfl i q
/-- Right operand, axis 0 (contracted): the contraction position. -/
theorem rhs1_0 (i : S12000x64.Idx) (q : dot_S12000x80_S80x64_S12000x64_1_0_0_1_n_n.contr.Idx) :
    (dot_S12000x80_S80x64_S12000x64_1_0_0_1_n_n.rhsIdx i q 0).val = (q ⟨0, by decide⟩).val :=
  dot_S12000x80_S80x64_S12000x64_1_0_0_1_n_n.rhsIdx_val_of_single rfl i q
/-- Right operand, axis 1 (free): the output's column. -/
theorem rhs1_1 (i : S12000x64.Idx) (q : dot_S12000x80_S80x64_S12000x64_1_0_0_1_n_n.contr.Idx) :
    (dot_S12000x80_S80x64_S12000x64_1_0_0_1_n_n.rhsIdx i q 1).val = (i 1).val := by
  unfold DotDims.rhsIdx
  rw [dif_neg (show ¬(1 : Fin S80x64.rank) ∈ dot_S12000x80_S80x64_S12000x64_1_0_0_1_n_n.rhsBatch by decide), dif_pos (show (1 : Fin S80x64.rank) ∈ dot_S12000x80_S80x64_S12000x64_1_0_0_1_n_n.rhsNonContracting by decide)]
  rfl

/-- The product into a zero accumulator at (p, n) is the sum over the 80 contracted positions k of a (p, k) · b (k, n). -/
theorem mm1_apply (a : FVec Ideal S12000x80 .bf16) (b : FVec Ideal S80x64 .bf16) (p : Fin 12000) (n : Fin 64) :
    matmul dot_S12000x80_S80x64_S12000x64_1_0_0_1_n_n none a b (constant (F := Ideal) S12000x64 .f32 0x00000000#32) (ix2 p n)
      = ∑ k : Fin 80, a (ix2 p k) * b (ix2 k n) := by
  simp only [matmul]
  rw [Ideal.matmul_constant_zero_apply, ← Equiv.sum_comp (ValueIdx.contrEquiv1 dot_S12000x80_S80x64_S12000x64_1_0_0_1_n_n 80 rfl rfl).symm]
  refine Finset.sum_congr rfl fun k _ => ?_
  have hk := ValueIdx.contrEquiv1_symm_val dot_S12000x80_S80x64_S12000x64_1_0_0_1_n_n 80 rfl rfl k
  have el : dot_S12000x80_S80x64_S12000x64_1_0_0_1_n_n.lhsIdx (ix2 p n) ((ValueIdx.contrEquiv1 dot_S12000x80_S80x64_S12000x64_1_0_0_1_n_n 80 rfl rfl).symm k) = ix2 p k := funext fun a => Fin.ext (by
    match a with
    | ⟨0, _⟩ => exact lhs1_0 _ _
    | ⟨1, _⟩ => exact (lhs1_1 _ _).trans hk)
  have er : dot_S12000x80_S80x64_S12000x64_1_0_0_1_n_n.rhsIdx (ix2 p n) ((ValueIdx.contrEquiv1 dot_S12000x80_S80x64_S12000x64_1_0_0_1_n_n 80 rfl rfl).symm k) = ix2 k n := funext fun a => Fin.ext (by
    match a with
    | ⟨0, _⟩ => exact (rhs1_0 _ _).trans hk
    | ⟨1, _⟩ => exact rhs1_1 _ _)
  rw [el, er]

/-- Second product, left operand, axis 0 (free): the output's row. -/
theorem lhs2_0 (i : S12000x64.Idx) (q : dot_S12000x64_S64x64_S12000x64_1_0_0_1_n_n.contr.Idx) :
    (dot_S12000x64_S64x64_S12000x64_1_0_0_1_n_n.lhsIdx i q 0).val = (i 0).val := by
  unfold DotDims.lhsIdx
  rw [dif_neg (show ¬(0 : Fin S12000x64.rank) ∈ dot_S12000x64_S64x64_S12000x64_1_0_0_1_n_n.lhsBatch by decide), dif_pos (show (0 : Fin S12000x64.rank) ∈ dot_S12000x64_S64x64_S12000x64_1_0_0_1_n_n.lhsNonContracting by decide)]
  rfl
/-- Left operand, axis 1 (contracted): the contraction position. -/
theorem lhs2_1 (i : S12000x64.Idx) (q : dot_S12000x64_S64x64_S12000x64_1_0_0_1_n_n.contr.Idx) :
    (dot_S12000x64_S64x64_S12000x64_1_0_0_1_n_n.lhsIdx i q 1).val = (q ⟨0, by decide⟩).val :=
  dot_S12000x64_S64x64_S12000x64_1_0_0_1_n_n.lhsIdx_val_of_single rfl i q
/-- Right operand, axis 0 (contracted): the contraction position. -/
theorem rhs2_0 (i : S12000x64.Idx) (q : dot_S12000x64_S64x64_S12000x64_1_0_0_1_n_n.contr.Idx) :
    (dot_S12000x64_S64x64_S12000x64_1_0_0_1_n_n.rhsIdx i q 0).val = (q ⟨0, by decide⟩).val :=
  dot_S12000x64_S64x64_S12000x64_1_0_0_1_n_n.rhsIdx_val_of_single rfl i q
/-- Right operand, axis 1 (free): the output's column. -/
theorem rhs2_1 (i : S12000x64.Idx) (q : dot_S12000x64_S64x64_S12000x64_1_0_0_1_n_n.contr.Idx) :
    (dot_S12000x64_S64x64_S12000x64_1_0_0_1_n_n.rhsIdx i q 1).val = (i 1).val := by
  unfold DotDims.rhsIdx
  rw [dif_neg (show ¬(1 : Fin S64x64.rank) ∈ dot_S12000x64_S64x64_S12000x64_1_0_0_1_n_n.rhsBatch by decide), dif_pos (show (1 : Fin S64x64.rank) ∈ dot_S12000x64_S64x64_S12000x64_1_0_0_1_n_n.rhsNonContracting by decide)]
  rfl

/-- The product into a zero accumulator at (p, n) is the sum over the 64 contracted positions k of a (p, k) · b (k, n). -/
theorem mm2_apply (a : FVec Ideal S12000x64 .bf16) (b : FVec Ideal S64x64 .bf16) (p : Fin 12000) (n : Fin 64) :
    matmul dot_S12000x64_S64x64_S12000x64_1_0_0_1_n_n none a b (constant (F := Ideal) S12000x64 .f32 0x00000000#32) (ix2 p n)
      = ∑ k : Fin 64, a (ix2 p k) * b (ix2 k n) := by
  simp only [matmul]
  rw [Ideal.matmul_constant_zero_apply, ← Equiv.sum_comp (ValueIdx.contrEquiv1 dot_S12000x64_S64x64_S12000x64_1_0_0_1_n_n 64 rfl rfl).symm]
  refine Finset.sum_congr rfl fun k _ => ?_
  have hk := ValueIdx.contrEquiv1_symm_val dot_S12000x64_S64x64_S12000x64_1_0_0_1_n_n 64 rfl rfl k
  have el : dot_S12000x64_S64x64_S12000x64_1_0_0_1_n_n.lhsIdx (ix2 p n) ((ValueIdx.contrEquiv1 dot_S12000x64_S64x64_S12000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S12000x64_S64x64_S12000x64_1_0_0_1_n_n.rhsIdx (ix2 p n) ((ValueIdx.contrEquiv1 dot_S12000x64_S64x64_S12000x64_1_0_0_1_n_n 64 rfl rfl).symm k) = ix2 k n := funext fun a => Fin.ext (by
    match a with
    | ⟨0, _⟩ => exact (rhs2_0 _ _).trans hk
    | ⟨1, _⟩ => exact rhs2_1 _ _)
  rw [el, er]

/-- The concatenation along the columns, read at row p and column k: the first piece where k is below 64, the second at
    k - 64 from there on: the row of 80 of the specification. -/
theorem cat_apply (x0 : Vec Ideal S12000x64 .f32) (x1 : Vec Ideal S12000x16 .f32) (p : Fin 12000) (k : Fin 80) :
    concatenate S12000x80 1 [⟨S12000x64, shapeCast S12000x64 x0 shapeCasts_S12000x64_S12000x64⟩, ⟨S12000x16, x1⟩]
        concatenates_S12000x64_S12000x16_S12000x80_d1 (ix2 p k)
      = Cert.Spec.cat80 (fun k => x0 (ix2 p k)) (fun k => x1 (ix2 p k)) k := by
  rw [shapeCast_self]
  unfold Cert.Spec.cat80
  by_cases h : k.val < 64
  · rw [dif_pos h]
    exact concatenate_pair_apply_left (1 : Fin S12000x80.rank) x0 x1 concatenates_S12000x64_S12000x16_S12000x80_d1 (ix2 p k) rfl
      (ix2 p ⟨k.val, h⟩) (fun b => by match b with | ⟨0, _⟩ => rfl | ⟨1, _⟩ => rfl)
  · rw [dif_neg h]
    exact concatenate_pair_apply_right (1 : Fin S12000x80.rank) x0 x1 concatenates_S12000x64_S12000x16_S12000x80_d1 (ix2 p k) rfl rfl
      (ix2 p ⟨k.val - 64, by have := k.isLt; omega⟩)
      (fun b hb => by match b, hb with | ⟨0, _⟩, _ => rfl | ⟨1, _⟩, hb => exact absurd rfl hb)
      (by show (k.val - 64) + 64 = k.val; omega)

/-- A vector of 64 laid as one row and repeated down the 12000 rows reads, at (p, n), its entry n. -/
theorem bias_apply (b : Vec Ideal S64 .f32) (p : Fin 12000) (n : Fin 64) :
    broadcastTo S12000x64 (shapeCast S1x64 b shapeCasts_S64_S1x64) broadcasts_S1x64_S12000x64 (ix2 p n) = b (ix1 n) := by
  rw [broadcastTo_1b_ab_apply]
  exact shapeCast_a_1a_apply b shapeCasts_S64_S1x64 0 n

/-- The pre-activation of the block: the 80-entry rows times W1, plus b1 down the rows. -/
def pre (x0 : Vec Ideal S12000x64 .f32) (x1 : Vec Ideal S12000x16 .f32) (x2 : Vec Ideal S80x64 .f32)
    (x3 : Vec Ideal S64 .f32) : FVec Ideal S12000x64 .f32 :=
  addf (matmul dot_S12000x80_S80x64_S12000x64_1_0_0_1_n_n none
      (truncf .bf16 (concatenate S12000x80 1 [⟨S12000x64, shapeCast S12000x64 x0 shapeCasts_S12000x64_S12000x64⟩, ⟨S12000x16, x1⟩]
        concatenates_S12000x64_S12000x16_S12000x80_d1) bitsLt_bf16_f32)
      (truncf .bf16 x2 bitsLt_bf16_f32) (constant S12000x64 .f32 0x00000000#32))
    (broadcastTo S12000x64 (shapeCast S1x64 x3 shapeCasts_S64_S1x64) broadcasts_S1x64_S12000x64)

/-- The activation applied entry by entry, in the kernel's order of operations. -/
def act (h : FVec Ideal S12000x64 .f32) : FVec Ideal S12000x64 .f32 :=
  mulf h (mulf (broadcast S12000x64 (Scalar.ofBits .f32 0x3F000000#32))
    (addf (broadcast S12000x64 (Scalar.ofBits .f32 0x3F800000#32))
      (tanh (mulf (broadcast S12000x64 (Scalar.ofBits .f32 0x3F4C422A#32))
        (addf h (mulf (broadcast S12000x64 (Scalar.ofBits .f32 0x3D372713#32)) (mulf h (mulf h h))))))))

/-- The stored value is the second product of the activated pre-activation with W2, plus b2 down the rows. -/
theorem pay_eq (x0 : Vec Ideal S12000x64 .f32) (x1 : Vec Ideal S12000x16 .f32) (x2 : Vec Ideal S80x64 .f32)
    (x3 : Vec Ideal S64 .f32) (x4 : Vec Ideal S64x64 .f32) (x5 : Vec Ideal S64 .f32) :
    k0_pay1 (F := Ideal) x0 x1 x2 x3 x4 x5
      = addf (matmul dot_S12000x64_S64x64_S12000x64_1_0_0_1_n_n none (truncf .bf16 (act (pre x0 x1 x2 x3)) bitsLt_bf16_f32)
          (truncf .bf16 x4 bitsLt_bf16_f32) (constant S12000x64 .f32 0x00000000#32))
        (broadcastTo S12000x64 (shapeCast S1x64 x5 shapeCasts_S64_S1x64) broadcasts_S1x64_S12000x64) := rfl

/-- The pre-activation at (p, n) is the specification's affine map of row p at output n. -/
theorem pre_apply (x0 : Vec Ideal S12000x64 .f32) (x1 : Vec Ideal S12000x16 .f32) (x2 : Vec Ideal S80x64 .f32)
    (x3 : Vec Ideal S64 .f32) (p : Fin 12000) (n : Fin 64) :
    pre x0 x1 x2 x3 (ix2 p n)
      = Cert.Spec.affine (Cert.Spec.cat80 (fun k => x0 (ix2 p k)) (fun k => x1 (ix2 p k))) (fun k n => x2 (ix2 k n))
          (fun n => x3 (ix1 n)) n := by
  unfold pre Cert.Spec.affine
  rw [addf_apply, mm1_apply, bias_apply]
  refine congrArg (· + x3 (ix1 n)) (Finset.sum_congr rfl fun k _ => ?_)
  rw [truncf_apply, truncf_apply, cat_apply]

/-- The activation at an entry is the specification's gelu of that entry. -/
theorem act_apply (h : FVec Ideal S12000x64 .f32) (i : S12000x64.Idx) : act h i = Cert.Spec.gelu (h i) := rfl

/-- The stored value of the edge kernel, as a function of the six loaded blocks, is the specification's edge messages of
    those blocks. -/
theorem edge_payload (x0 : Vec Ideal S12000x64 .f32) (x1 : Vec Ideal S12000x16 .f32) (x2 : Vec Ideal S80x64 .f32)
    (x3 : Vec Ideal S64 .f32) (x4 : Vec Ideal S64x64 .f32) (x5 : Vec Ideal S64 .f32) :
    k0_pay1 (F := Ideal) x0 x1 x2 x3 x4 x5 = Cert.Spec.edgeMsgs x0 x1 x2 x3 x4 x5 := by
  funext i
  obtain ⟨p, q, rfl⟩ : ∃ (p : Fin 12000) (q : Fin 64), i = ix2 p q := ⟨i 0, i 1, ValueIdx.eq_ix2 i⟩
  rw [pay_eq, addf_apply, mm2_apply, bias_apply]
  show _ = Cert.Spec.affine (fun n => Cert.Spec.gelu (Cert.Spec.affine
      (Cert.Spec.cat80 (fun k => x0 (ix2 p k)) (fun k => x1 (ix2 p k))) (fun k n => x2 (ix2 k n)) (fun n => x3 (ix1 n)) n))
    (fun n j => x4 (ix2 n j)) (fun n => x5 (ix1 n)) q
  unfold Cert.Spec.affine
  refine congrArg (· + x5 (ix1 q)) (Finset.sum_congr rfl fun n _ => ?_)
  rw [truncf_apply, truncf_apply, act_apply, pre_apply]
  rfl

end Cert.KernelIdeal.EdgeBody

end
-- ==== Proof.EdgeArray.lean ====
/-
  After the edge region, the message array holds the specification's edge messages of the arrays the region found.

  Grid point t (of 100) reads rows 12000 t … 12000 t + 11999 of the gathered source features and of the edge features, the
  whole of the four parameter arrays, and writes the same 12000 rows of the message array. What it writes is the edge message
  of its blocks, and a row of the messages depends on the same row of the inputs only, so the block written at t is block t of
  the messages of the whole arrays. The 100 blocks tile the 1200000 rows: row r is in the block of point r / 12000.
-/
import proofs.«136936_j83348135346321_1_alg».proof.Proof.Gen.KernelIdeal.Frame
import proofs.«136936_j83348135346321_1_alg».proof.Proof.EdgeBody
import Idealize.ShloMosaic.Lib.Pipeline.Value

set_option maxRecDepth 16384

noncomputable section

namespace Cert.KernelIdeal.EdgeArray

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The messages of the arrays as the region finds them. -/
abbrev msgs (c : Dev nD) : S1200000x64.Idx → EReal :=
  Cert.Spec.edgeMsgs (V c main_v10) (V c main_arg1) (V c main_arg3) (V c main_arg4) (V c main_arg5) (V c main_arg6)

/-- The printed index maps over the grid: the output and the two row-blocked inputs are at block (t, 0), the four parameter
    arrays at their one block. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- What point t writes back is block t of the messages of the whole arrays. -/
theorem flushed_eq (c : Dev nD) (t : Fin cfg0.N) :
    (dat0 V c).flushed 6 t = ((cfg0.win 6).blk t).view.read (Elt Ideal) (msgs V c) := by
  show (cfg0.win 6).cut (grid0.coords t) ((dat0 V c).after 6 t) = _
  rw [after0_6]
  unfold out0_6
  rw [View.canon_unit_zero hz2]
  simp only [View.ld_unit_zero (S := S12000x64) hz2, View.ld_unit_zero (S := S12000x16) hz2,
    View.ld_unit_zero (S := S80x64) hz2, View.ld_unit_zero (S := S64) hz1, View.ld_unit_zero (S := S64x64) hz2]
  rw [Cert.KernelIdeal.EdgeBody.edge_payload]
  obtain ⟨e60, e61, e00, e01, e10, e11, e20, e21, e3, e40, e41, e5⟩ := idx_facts t
  have ht : t.val < 100 := lt_of_lt_of_eq t.isLt N_0
  -- the four parameter windows have one block: the whole array
  have h2 : (iblk0 V c 2 t : S80x64.Idx → EReal) = V c main_arg3 := by
    funext y
    show V c main_arg3 (((cfg0.win 2).blk t).view.emb y) = V c main_arg3 y
    refine congrArg _ (funext fun a => Fin.ext ?_)
    match a with
    | ⟨0, _⟩ => show win0_2.index t (0 : Fin 2) * 80 + 1 * (y 0).val = (y 0).val; omega
    | ⟨1, _⟩ => show win0_2.index t (1 : Fin 2) * 64 + 1 * (y 1).val = (y 1).val; omega
  have h3 : (iblk0 V c 3 t : S64.Idx → EReal) = V c main_arg4 := by
    funext y
    show V c main_arg4 (((cfg0.win 3).blk t).view.emb y) = V c main_arg4 y
    refine congrArg _ (funext fun a => Fin.ext ?_)
    match a with
    | ⟨0, _⟩ => show win0_3.index t (0 : Fin 1) * 64 + 1 * (y 0).val = (y 0).val; omega
  have h4 : (iblk0 V c 4 t : S64x64.Idx → EReal) = V c main_arg5 := by
    funext y
    show V c main_arg5 (((cfg0.win 4).blk t).view.emb y) = V c main_arg5 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  have h5 : (iblk0 V c 5 t : S64.Idx → EReal) = V c main_arg6 := by
    funext y
    show V c main_arg6 (((cfg0.win 5).blk t).view.emb y) = V c main_arg6 y
    refine congrArg _ (funext fun a => Fin.ext ?_)
    match a with
    | ⟨0, _⟩ => show win0_5.index t (0 : Fin 1) * 64 + 1 * (y 0).val = (y 0).val; omega
  refine funext fun (j : S12000x64.Idx) => ?_
  obtain ⟨p, q, rfl⟩ : ∃ (p : Fin 12000) (q : Fin 64), j = ix2 p q :=
    ⟨j 0, j 1, ValueIdx.eq_ix2 (n0 := 12000) (n1 := 64) j⟩
  have hp : p.val < 12000 := p.isLt
  -- row p of block t is row 12000 t + p of the array
  have hemb : ((cfg0.win 6).blk t).view.emb (ix2 p q) = ix2 (⟨12000 * t.val + p.val, by omega⟩ : Fin 1200000) q := by
    funext a; apply Fin.ext
    match a with
    | ⟨0, _⟩ => show win0_6.index t (0 : Fin 2) * 12000 + 1 * p.val = 12000 * t.val + p.val; omega
    | ⟨1, _⟩ => show win0_6.index t (1 : Fin 2) * 64 + 1 * q.val = q.val; omega
  show Cert.Spec.edgeMsgs (iblk0 V c 0 t) (iblk0 V c 1 t) (iblk0 V c 2 t) (iblk0 V c 3 t) (iblk0 V c 4 t) (iblk0 V c 5 t) (ix2 p q)
    = msgs V c (((cfg0.win 6).blk t).view.emb (ix2 p q))
  rw [hemb, h2, h3, h4, h5]
  refine Cert.Spec.edgeMsgs_row (V c main_v10) (V c main_arg1) (iblk0 V c 0 t) (iblk0 V c 1 t) _ _ _ _
    (⟨12000 * t.val + p.val, by omega⟩ : Fin 1200000) p (fun k => ?_) (fun k => ?_) q
  · show V c main_v10 (((cfg0.win 0).blk t).view.emb (ix2 p k)) = V c main_v10 (ix2 _ k)
    refine congrArg _ (funext fun a => Fin.ext ?_)
    match a with
    | ⟨0, _⟩ => show win0_0.index t (0 : Fin 2) * 12000 + 1 * p.val = 12000 * t.val + p.val; omega
    | ⟨1, _⟩ => show win0_0.index t (1 : Fin 2) * 64 + 1 * k.val = k.val; omega
  · show V c main_arg1 (((cfg0.win 1).blk t).view.emb (ix2 p k)) = V c main_arg1 (ix2 _ k)
    refine congrArg _ (funext fun a => Fin.ext ?_)
    match a with
    | ⟨0, _⟩ => show win0_1.index t (0 : Fin 2) * 12000 + 1 * p.val = 12000 * t.val + p.val; omega
    | ⟨1, _⟩ => show win0_1.index t (1 : Fin 2) * 16 + 1 * k.val = k.val; omega

/-- An index of the message array is in point t's block iff each coordinate is in the block's range on its axis. -/
theorem mem_blk (t : Fin cfg0.N) (i : S1200000x64.Idx) :
    i ∈ ((cfg0.win 6).blk t).view.set ↔ ∀ a : Fin 2, win0_6.index t a * S12000x64.size a ≤ (i a).val
      ∧ (i a).val < win0_6.index t a * S12000x64.size a + S12000x64.size a := by
  show i ∈ ((View.whole main_v11).slice (win0_6.rect t)).set ↔ _
  rw [View.set_slice_whole, Rect.mem_set_unit]
  exact Iff.rfl

/-- Every row is in the block of the point its row number divided by 12000 names. -/
theorem cover (i : S1200000x64.Idx) :
    ∃ t : Fin cfg0.N, (cfg0.win 6).flush t = true ∧ i ∈ ((cfg0.win 6).blk t).view.set := by
  have hi0 : (i 0).val < 1200000 := (i 0).isLt
  have hi1 : (i 1).val < 64 := (i 1).isLt
  have hN : cfg0.N = 100 := N_0
  refine ⟨⟨(i 0).val / 12000, by rw [hN]; omega⟩, flush0_6 _, ?_⟩
  rw [mem_blk]
  obtain ⟨e60, e61, -⟩ := idx_facts ⟨(i 0).val / 12000, by rw [hN]; omega⟩
  intro a
  match a with
  | ⟨0, _⟩ =>
    show win0_6.index _ (0 : Fin 2) * 12000 ≤ (i 0).val ∧ (i 0).val < win0_6.index _ (0 : Fin 2) * 12000 + 12000
    rw [e60]; show (i 0).val / 12000 * 12000 ≤ (i 0).val ∧ (i 0).val < (i 0).val / 12000 * 12000 + 12000; omega
  | ⟨1, _⟩ =>
    show win0_6.index _ (1 : Fin 2) * 64 ≤ (i 1).val ∧ (i 1).val < win0_6.index _ (1 : Fin 2) * 64 + 64
    rw [e61]; omega

/-- THE MESSAGE ARRAY after the edge region: the specification's edge messages of the arrays the region found. -/
theorem final (c : Dev nD) : (dat0 V c).arrAt 6 cfg0.N = msgs V c :=
  (dat0 V c).arrAt_eq_of_cover 6 (msgs V c) (fun t _ => flushed_eq V c t) cover

end Cert.KernelIdeal.EdgeArray

end
-- ==== Proof.NodeBody.lean ====
/-
  The node kernel's body, read at the extended reals, IS the node update of the specification over its blocks: from a block
  of 10000 node rows and the matching 10000 aggregate rows it stores, at row p and column q,
  gelu (layernorm (x · W3 + b3)) + node (p, q) with x the 128 entries of row p (64 node features, then 64 aggregated).
  The mean and the variance are lane sums over the 64 columns divided by 64, kept as a column and broadcast back along the row.
-/
import proofs.«136936_j83348135346321_1_alg».proof.Proof.Gen.KernelIdeal.Skeleton
import proofs.«136936_j83348135346321_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NodeBody

open Cert.KernelIdeal Cert.KernelIdeal.Gen Idealize.ShloMosaic Idealize.ShloMosaic.ValueIdx

/-! ## The column forms of a kept reduced axis, read at an index -/

/-- A vector of a entries cast to a column [a, 1] reads, at (i, u), the vector at i: both have row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 64 entries laid as one row and repeated over 10000 rows reads, at (p, q), the vector at q. -/
theorem rowvec_apply (w : Vec Ideal S64 .f32) (p : Fin 10000) (q : Fin 64) :
    broadcastTo S10000x64 (shapeCast S1x64 w Facts₀.shapeCasts_S64_S1x64) Facts₀.broadcasts_S1x64_S10000x64 (ix2 p q) = w (ix1 q) :=
  (broadcastTo_1b_ab_apply _ _ p q).trans (shapeCast_a_1a_apply w _ 0 q)

/-- The lane sum of a block over its 64 columns, at row p, is the sum over the columns of the block at (p, k): the reduced
    index with the coordinate k inserted on axis 1 is (p, k). -/
theorem rowsum_apply (src : FVec Ideal S10000x64 .f32) (p : Fin 10000) :
    multiReduction (F := Ideal) .add [1] S10000 src 0x00000000#32 Facts₀.reduces_S10000x64_S10000 (.inl rfl) rfl (ix1 p)
      = ∑ k : Fin 64, src (ix2 p k) := by
  refine (Ideal.multiReduction_add_single src 0x00000000#32 Facts₀.reduces_S10000x64_S10000 (.inl rfl) rfl (ix1 p)).trans ?_
  refine Finset.sum_congr rfl fun k _ => congrArg src ?_
  funext a
  match a with
  | ⟨0, _⟩ => rfl
  | ⟨1, _⟩ => rfl

/-! ## The matrix product read at an index -/

/-- The left operand's row coordinate at output index i is i's row. -/
theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

/-- The left operand's column coordinate is the contraction position. -/
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q

/-- The right operand's row coordinate is the contraction position. -/
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q

/-- The right operand's column coordinate at output index i is i's column. -/
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The two blocks of 64 columns side by side, read at (p, k): the first block's column k below 64, the second's
    column k - 64 from 64 on. -/
theorem cat_apply (x0 x1 : Vec Ideal S10000x64 .f32) (p : Fin 10000) (k : Fin 128) :
    concatenate S10000x128 1 [⟨S10000x64, x0⟩, ⟨S10000x64, x1⟩] Facts₀.concatenates_S10000x64_S10000x64_S10000x128_d1 (ix2 p k)
      = Cert.Spec.cat128 (fun k => x0 (ix2 p k)) (fun k => x1 (ix2 p k)) k := by
  unfold Cert.Spec.cat128
  split
  · rename_i hk
    exact concatenate_pair_apply_left 1 x0 x1 _ (ix2 p k) rfl (ix2 p ⟨k.val, hk⟩)
      (fun b => by match b with | ⟨0, _⟩ => rfl | ⟨1, _⟩ => rfl)
  · rename_i hk
    exact concatenate_pair_apply_right 1 x0 x1 _ (ix2 p k) rfl rfl (ix2 p ⟨k.val - 64, by have := k.isLt; omega⟩)
      (fun b hb => by match b with | ⟨0, _⟩ => rfl | ⟨1, _⟩ => exact absurd rfl hb)
      (by show (k.val - 64) + 64 = k.val; omega)

/-- The dense stage of the kernel: the product of the 128-entry rows with the weights, into a zero accumulator, plus the bias
    as a row. -/
def hmat (x0 x1 : Vec Ideal S10000x64 .f32) (x2 : Vec Ideal S128x64 .f32) (x3 : Vec Ideal S64 .f32) :
    FVec Ideal S10000x64 .f32 :=
  addf (matmul dot_S10000x128_S128x64_S10000x64_1_0_0_1_n_n none
      (truncf .bf16 (concatenate S10000x128 1 [⟨S10000x64, x0⟩, ⟨S10000x64, shapeCast S10000x64 x1 Facts₀.shapeCasts_S10000x64_S10000x64⟩]
        Facts₀.concatenates_S10000x64_S10000x64_S10000x128_d1) Facts₀.bitsLt_bf16_f32)
      (truncf .bf16 x2 Facts₀.bitsLt_bf16_f32) (constant S10000x64 .f32 0x00000000#32))
    (broadcastTo S10000x64 (shapeCast S1x64 x3 Facts₀.shapeCasts_S64_S1x64) Facts₀.broadcasts_S1x64_S10000x64)

/-- At (p, n) it is the sum over the 128 entries of row p times column n of the weights, plus the bias at n. -/
theorem hmat_apply (x0 x1 : Vec Ideal S10000x64 .f32) (x2 : Vec Ideal S128x64 .f32) (x3 : Vec Ideal S64 .f32)
    (p : Fin 10000) (n : Fin 64) :
    hmat x0 x1 x2 x3 (ix2 p n)
      = Cert.Spec.affine (Cert.Spec.cat128 (fun k => x0 (ix2 p k)) (fun k => x1 (ix2 p k)))
          (fun k n => x2 (ix2 k n)) (fun n => x3 (ix1 n)) n := by
  unfold hmat Cert.Spec.affine
  rw [addf_apply, rowvec_apply]
  congr 1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p n) ((ValueIdx.contrEquiv1 dot_S10000x128_S128x64_S10000x64_1_0_0_1_n_n 128 rfl rfl).symm k) = ix2 p k :=
    funext fun a => Fin.ext (by
      match a with
      | ⟨0, _⟩ => exact lhs_0 _ _
      | ⟨1, _⟩ => exact (lhs_1 _ _).trans hk)
  have er : dot_S10000x128_S128x64_S10000x64_1_0_0_1_n_n.rhsIdx (ix2 p n) ((ValueIdx.contrEquiv1 dot_S10000x128_S128x64_S10000x64_1_0_0_1_n_n 128 rfl rfl).symm k) = ix2 k n :=
    funext fun a => Fin.ext (by
      match a with
      | ⟨0, _⟩ => exact (rhs_0 _ _).trans hk
      | ⟨1, _⟩ => exact rhs_1 _ _)
  rw [el, er, truncf_apply, truncf_apply, shapeCast_self, cat_apply]

/-! ## The layer normalisation read at an index -/

/-- The mean of each row, kept as a column: the lane sum over the 64 columns, as a column, divided by the word of 64. -/
def meanCol (v : FVec Ideal S10000x64 .f32) : FVec Ideal S10000x1 .f32 :=
  divf (shapeCast S10000x1
      (multiReduction (F := Ideal) .add [1] S10000 v 0x00000000#32 Facts₀.reduces_S10000x64_S10000 (.inl rfl) rfl)
      Facts₀.shapeCasts_S10000_S10000x1)
    (broadcast S10000x1 (Scalar.ofBits (F := Ideal) .f32 0x42800000#32))

/-- At row p it is the mean of the 64 entries of row p. -/
theorem meanCol_apply (v : FVec Ideal S10000x64 .f32) (p : Fin 10000) (u : Fin 1) :
    meanCol v (ix2 p u) = Cert.Spec.mean64 (fun n => v (ix2 p n)) := by
  unfold meanCol Cert.Spec.mean64
  rw [divf_apply, shapeCast_a_a1_apply, rowsum_apply]
  rfl

/-- The deviation from the row's mean: the block minus the mean column repeated along the row. -/
def dev (v : FVec Ideal S10000x64 .f32) : FVec Ideal S10000x64 .f32 :=
  subf v (broadcastTo S10000x64 (meanCol v) Facts₀.broadcasts_S10000x1_S10000x64)

/-- At (p, q) it is the entry minus the mean of row p. -/
theorem dev_apply (v : FVec Ideal S10000x64 .f32) (p : Fin 10000) (q : Fin 64) :
    dev v (ix2 p q) = v (ix2 p q) - Cert.Spec.mean64 (fun n => v (ix2 p n)) := by
  unfold dev
  rw [subf_apply, broadcastTo_a1_ab_apply, meanCol_apply]

/-- The kernel's layer normalisation of a block: the deviation times the reciprocal square root of the mean squared deviation
    plus the small constant (a column repeated along the row), times the scale as a row, plus the bias as a row. -/
def lnK (v : FVec Ideal S10000x64 .f32) (sc bi : Vec Ideal S64 .f32) : FVec Ideal S10000x64 .f32 :=
  addf (mulf (mulf (dev v)
        (broadcastTo S10000x64
          (rsqrt (addf (meanCol (mulf (dev v) (dev v))) (broadcast S10000x1 (Scalar.ofBits (F := Ideal) .f32 0x358637BD#32))))
          Facts₀.broadcasts_S10000x1_S10000x64))
      (broadcastTo S10000x64 (shapeCast S1x64 sc Facts₀.shapeCasts_S64_S1x64) Facts₀.broadcasts_S1x64_S10000x64))
    (broadcastTo S10000x64 (shapeCast S1x64 bi Facts₀.shapeCasts_S64_S1x64) Facts₀.broadcasts_S1x64_S10000x64)

/-- At (p, q) it is the specification's layer normalisation of row p at entry q. -/
theorem lnK_apply (v : FVec Ideal S10000x64 .f32) (sc bi : Vec Ideal S64 .f32) (p : Fin 10000) (q : Fin 64) :
    lnK v sc bi (ix2 p q)
      = Cert.Spec.lnorm (fun n => v (ix2 p n)) (fun n => sc (ix1 n)) (fun n => bi (ix1 n)) q := by
  unfold lnK Cert.Spec.lnorm
  rw [addf_apply, mulf_apply, mulf_apply, rowvec_apply, rowvec_apply, dev_apply, broadcastTo_a1_ab_apply]
  show ((_ - _) * Ideal.rsqrt (meanCol (mulf (dev v) (dev v)) (ix2 p (0 : Fin 1)) + Ideal.ofBits .f32 0x358637BD#32)) * _ + _ = _
  rw [meanCol_apply]
  have hsq : (fun n => mulf (dev v) (dev v) (ix2 p n))
      = fun n => (v (ix2 p n) - Cert.Spec.mean64 (fun n => v (ix2 p n))) * (v (ix2 p n) - Cert.Spec.mean64 (fun n => v (ix2 p n))) :=
    funext fun n => by rw [mulf_apply, dev_apply]
  rw [hsq]

/-! ## The three payloads -/

/-- The normalised row the kernel keeps is the layer normalisation of the dense stage. -/
theorem pay2_eq (x0 x1 : Vec Ideal S10000x64 .f32) (x2 : Vec Ideal S128x64 .f32) (x3 x4 x5 : Vec Ideal S64 .f32) :
    k1_pay2 (F := Ideal) x0 x1 x2 x3 x4 x5 = lnK (hmat x0 x1 x2 x3) x4 x5 := rfl

/-- The inner polynomial of the activation, pointwise over the normalised row: y + c₁ · (y · (y · y)). -/
theorem pay3_apply (x0 x1 : Vec Ideal S10000x64 .f32) (x2 : Vec Ideal S128x64 .f32) (x3 x4 x5 : Vec Ideal S64 .f32)
    (i : S10000x64.Idx) :
    k1_pay3 (F := Ideal) x0 x1 x2 x3 x4 x5 i
      = k1_pay2 (F := Ideal) x0 x1 x2 x3 x4 x5 i + Ideal.ofBits .f32 0x3D372713#32
          * (k1_pay2 (F := Ideal) x0 x1 x2 x3 x4 x5 i
            * (k1_pay2 (F := Ideal) x0 x1 x2 x3 x4 x5 i * k1_pay2 (F := Ideal) x0 x1 x2 x3 x4 x5 i)) := rfl

/-- The rest of the activation and the residual, pointwise: y · (½ · (1 + tanh (c₂ · z))) + x. -/
theorem pay1_apply (v0 v37 v42 : FVec Ideal S10000x64 .f32) (i : S10000x64.Idx) :
    k1_pay1 (F := Ideal) v0 v37 v42 i
      = v37 i * (Ideal.ofBits .f32 0x3F000000#32 * (Ideal.ofBits .f32 0x3F800000#32
          + Ideal.tanh (Ideal.ofBits .f32 0x3F4C422A#32 * v42 i))) + v0 i := rfl

/-- The stored value of the node kernel, as a function of the six loaded blocks, is the specification's node update of
    those blocks. -/
theorem node_payload (x0 x1 : Vec Ideal S10000x64 .f32) (x2 : Vec Ideal S128x64 .f32) (x3 x4 x5 : Vec Ideal S64 .f32) :
    k1_pay1 (F := Ideal) x0 (k1_pay2 x0 x1 x2 x3 x4 x5) (k1_pay3 x0 x1 x2 x3 x4 x5)
      = Cert.Spec.nodeOut x0 x1 x2 x3 x4 x5 := by
  funext i
  obtain ⟨p, q, rfl⟩ : ∃ (p : Fin 10000) (q : Fin 64), i = ix2 p q := ⟨i 0, i 1, eq_ix2 i⟩
  rw [pay1_apply, pay3_apply, pay2_eq, lnK_apply, funext (hmat_apply x0 x1 x2 x3 p)]
  rfl

end Cert.KernelIdeal.NodeBody

end
-- ==== Proof.NodeArray.lean ====
/-
  After the node region, the output array holds the specification's node update of the arrays the region found.

  Grid point t (of 10) reads rows 10000 t … 10000 t + 9999 of the node features and of the aggregated messages, the whole of
  the four parameter arrays, and writes the same 10000 rows of the output. What it writes is the node update of its blocks, and
  a row of the update depends on the same row of the two inputs only, so the block written at t is block t of the update of
  the whole arrays. The 10 blocks tile the 100000 rows: row r is in the block of point r / 10000.
-/
import proofs.«136936_j83348135346321_1_alg».proof.Proof.Gen.KernelIdeal.Frame
import proofs.«136936_j83348135346321_1_alg».proof.Proof.NodeBody
import Idealize.ShloMosaic.Lib.Pipeline.Value

set_option maxRecDepth 16384

noncomputable section

namespace Cert.KernelIdeal.NodeArray

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node update of the arrays as the region finds them. -/
abbrev upd (c : Dev nD) : S100000x64.Idx → EReal :=
  Cert.Spec.nodeOut (V c main_arg0) (V c main_v14) (V c main_arg7) (V c main_arg8) (V c main_arg9) (V c main_arg10)

/-- The printed index maps over the grid: the output and the two row-blocked inputs are at block (t, 0), the four parameter
    arrays at their one block. -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 1) = 0 :=
  (by decide +kernel : ∀ t : Fin grid1.N, _)

/-- What point t writes back is block t of the node update of the whole arrays. -/
theorem flushed_eq (c : Dev nD) (t : Fin cfg1.N) :
    (dat1 V c).flushed 6 t = ((cfg1.win 6).blk t).view.read (Elt Ideal) (upd V c) := by
  show (cfg1.win 6).cut (grid1.coords t) ((dat1 V c).after 6 t) = _
  rw [after1_6]
  unfold out1_6
  rw [View.canon_unit_zero hz2]
  simp only [View.ld_unit_zero (S := S10000x64) hz2, View.ld_unit_zero (S := S128x64) hz2, View.ld_unit_zero (S := S64) hz1]
  rw [Cert.KernelIdeal.NodeBody.node_payload]
  obtain ⟨e60, e61, e00, e01, e10, e11, e20, e21, e3, e4, e5⟩ := idx_facts t
  have ht : t.val < 10 := lt_of_lt_of_eq t.isLt N_1
  -- the four parameter windows have one block: the whole array
  have h2 : (iblk1 V c 2 t : S128x64.Idx → EReal) = V c main_arg7 := by
    funext y
    show V c main_arg7 (((cfg1.win 2).blk t).view.emb y) = V c main_arg7 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  have h3 : (iblk1 V c 3 t : S64.Idx → EReal) = V c main_arg8 := by
    funext y
    show V c main_arg8 (((cfg1.win 3).blk t).view.emb y) = V c main_arg8 y
    refine congrArg _ (funext fun a => Fin.ext ?_)
    match a with
    | ⟨0, _⟩ => show win1_3.index t (0 : Fin 1) * 64 + 1 * (y 0).val = (y 0).val; omega
  have h4 : (iblk1 V c 4 t : S64.Idx → EReal) = V c main_arg9 := by
    funext y
    show V c main_arg9 (((cfg1.win 4).blk t).view.emb y) = V c main_arg9 y
    refine congrArg _ (funext fun a => Fin.ext ?_)
    match a with
    | ⟨0, _⟩ => show win1_4.index t (0 : Fin 1) * 64 + 1 * (y 0).val = (y 0).val; omega
  have h5 : (iblk1 V c 5 t : S64.Idx → EReal) = V c main_arg10 := by
    funext y
    show V c main_arg10 (((cfg1.win 5).blk t).view.emb y) = V c main_arg10 y
    refine congrArg _ (funext fun a => Fin.ext ?_)
    match a with
    | ⟨0, _⟩ => show win1_5.index t (0 : Fin 1) * 64 + 1 * (y 0).val = (y 0).val; omega
  refine funext fun (j : S10000x64.Idx) => ?_
  obtain ⟨p, q, rfl⟩ : ∃ (p : Fin 10000) (q : Fin 64), j = ix2 p q :=
    ⟨j 0, j 1, ValueIdx.eq_ix2 (n0 := 10000) (n1 := 64) j⟩
  have hp : p.val < 10000 := p.isLt
  -- row p of block t is row 10000 t + p of the array
  have hemb : ((cfg1.win 6).blk t).view.emb (ix2 p q) = ix2 (⟨10000 * t.val + p.val, by omega⟩ : Fin 100000) q := by
    funext a; apply Fin.ext
    match a with
    | ⟨0, _⟩ => show win1_6.index t (0 : Fin 2) * 10000 + 1 * p.val = 10000 * t.val + p.val; omega
    | ⟨1, _⟩ => show win1_6.index t (1 : Fin 2) * 64 + 1 * q.val = q.val; omega
  show Cert.Spec.nodeOut (iblk1 V c 0 t) (iblk1 V c 1 t) (iblk1 V c 2 t) (iblk1 V c 3 t) (iblk1 V c 4 t) (iblk1 V c 5 t) (ix2 p q)
    = upd V c (((cfg1.win 6).blk t).view.emb (ix2 p q))
  rw [hemb, h2, h3, h4, h5]
  refine Cert.Spec.nodeOut_row (V c main_arg0) (V c main_v14) (iblk1 V c 0 t) (iblk1 V c 1 t) _ _ _ _
    (⟨10000 * t.val + p.val, by omega⟩ : Fin 100000) p (fun k => ?_) (fun k => ?_) q
  · show V c main_arg0 (((cfg1.win 0).blk t).view.emb (ix2 p k)) = V c main_arg0 (ix2 _ k)
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 64 + 1 * k.val = k.val; omega
  · show V c main_v14 (((cfg1.win 1).blk t).view.emb (ix2 p k)) = V c main_v14 (ix2 _ k)
    refine congrArg _ (funext fun a => Fin.ext ?_)
    match a with
    | ⟨0, _⟩ => show win1_1.index t (0 : Fin 2) * 10000 + 1 * p.val = 10000 * t.val + p.val; omega
    | ⟨1, _⟩ => show win1_1.index t (1 : Fin 2) * 64 + 1 * k.val = k.val; omega

/-- An index of the output array is in point t's block iff each coordinate is in the block's range on its axis. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v15).slice (win1_6.rect t)).set ↔ _
  rw [View.set_slice_whole, Rect.mem_set_unit]
  exact Iff.rfl

/-- Every row is in the block of the point its row number divided by 10000 names. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_6 _, ?_⟩
  rw [mem_blk]
  obtain ⟨e60, e61, -⟩ := idx_facts ⟨(i 0).val / 10000, by rw [hN]; omega⟩
  intro a
  match a with
  | ⟨0, _⟩ =>
    show win1_6.index _ (0 : Fin 2) * 10000 ≤ (i 0).val ∧ (i 0).val < win1_6.index _ (0 : Fin 2) * 10000 + 10000
    rw [e60]; show (i 0).val / 10000 * 10000 ≤ (i 0).val ∧ (i 0).val < (i 0).val / 10000 * 10000 + 10000; omega
  | ⟨1, _⟩ =>
    show win1_6.index _ (1 : Fin 2) * 64 ≤ (i 1).val ∧ (i 1).val < win1_6.index _ (1 : Fin 2) * 64 + 64
    rw [e61]; omega

/-- THE OUTPUT ARRAY after the node region: the specification's node update of the arrays the region found. -/
theorem final (c : Dev nD) : (dat1 V c).arrAt 6 cfg1.N = upd V c :=
  (dat1 V c).arrAt_eq_of_cover 6 (upd V c) (fun t _ => flushed_eq V c t) cover

end Cert.KernelIdeal.NodeArray

end
-- ==== Proof.KernelValue.lean ====
/-
  The result buffer of the idealized kernel as ONE function of the argument arrays.

  Read backwards through @main: the result buffer is the node region's output array, the node update of the node features and
  the aggregate as that region found them; the aggregate is the scatter-add, by the destination indices, of the edge region's
  output array; that array is the edge messages of the gathered source rows and the edge features as the edge region found
  them; and every argument array reads as launched at both regions. So the result is

    nodeOut node (scatter dst (edgeMsgs (gather node src) edge W1 b1 W2 b2)) W3 b3 scale bias.
-/
import proofs.«136936_j83348135346321_1_alg».proof.Proof.ValueRun
import proofs.«136936_j83348135346321_1_alg».proof.Proof.HostReads
import proofs.«136936_j83348135346321_1_alg».proof.Proof.EdgeArray
import proofs.«136936_j83348135346321_1_alg».proof.Proof.NodeArray

set_option maxRecDepth 16384

noncomputable section

namespace Cert.KernelIdeal.KernelValue

open Cert.KernelIdeal Cert.KernelIdeal.Gen Cert.KernelIdeal.HostReads
open Idealize.ShloMosaic Idealize.ShloMosaic.TcCoe Idealize.SL.Sem

/-- The layer's output as the kernel computes it, from the eleven argument arrays. -/
def value (a0 : (⟨S100000x64, .f32⟩ : BufTy).Contents (Elt Ideal)) (a1 : (⟨S1200000x16, .f32⟩ : BufTy).Contents (Elt Ideal))
    (a2 : (⟨S2x1200000, .i32⟩ : BufTy).Contents (Elt Ideal)) (a3 : (⟨S80x64, .f32⟩ : BufTy).Contents (Elt Ideal))
    (a4 : (⟨S64, .f32⟩ : BufTy).Contents (Elt Ideal)) (a5 : (⟨S64x64, .f32⟩ : BufTy).Contents (Elt Ideal))
    (a6 : (⟨S64, .f32⟩ : BufTy).Contents (Elt Ideal)) (a7 : (⟨S128x64, .f32⟩ : BufTy).Contents (Elt Ideal))
    (a8 a9 a10 : (⟨S64, .f32⟩ : BufTy).Contents (Elt Ideal)) : (⟨S100000x64, .f32⟩ : BufTy).Contents (Elt Ideal) :=
  Cert.Spec.nodeOut a0 (scatterOf a2 (Cert.Spec.edgeMsgs (gatherOf a0 a2) a1 a3 a4 a5 a6)) a7 a8 a9 a10

variable (m : (ℓ : Loc nD τ sig) → Buf (Elt Ideal) ℓ) (ρ : Dev nD → PrngReg)

/-- The edge region's output array, as it leaves it: the edge messages of the gathered rows and the arguments. -/
theorem W2_v11 (c : Dev nD) : W2 m ρ c (Proc.devRef .tc main_v11)
    = Cert.Spec.edgeMsgs (gatherOf (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) := by
  rw [show W2 m ρ c (Proc.devRef .tc main_v11) = (dat0 (V1 m ρ) c).arrAt 6 cfg0.N from W2_arr m ρ c 6]
  rw [Cert.KernelIdeal.EdgeArray.final (V1 m ρ) c]
  show Cert.Spec.edgeMsgs (W1 m ρ c (Proc.devRef .tc main_v10)) (W1 m ρ c (Proc.devRef .tc main_arg1))
    (W1 m ρ c (Proc.devRef .tc main_arg3)) (W1 m ρ c (Proc.devRef .tc main_arg4)) (W1 m ρ c (Proc.devRef .tc main_arg5))
    (W1 m ρ c (Proc.devRef .tc main_arg6)) = _
  rw [W1_v10, W1_arg1, W1_arg3, W1_arg4, W1_arg5, W1_arg6]

/-- The destination indices are not an array of the edge region: it leaves them as it found them. -/
theorem W2_v3 (c : Dev nD) : W2 m ρ c (Proc.devRef .tc main_v3) = dstIdx (m ((c : Thread nD τ).loc main_arg2)) :=
  (W2_of_ne m ρ c main_v3 (by decide)).trans (W1_v3 m ρ c)

/-- Argument 0 at the node region's entry is as launched: no host operation and no window of the edge region writes it. -/
theorem V3_arg0 (c : Dev nD) : W3 m ρ c (Proc.devRef .tc main_arg0) = m ((c : Thread nD τ).loc main_arg0) :=
  (W3_arg0 m ρ c).trans ((W2_of_ne m ρ c main_arg0 (by decide)).trans (W1_arg0 m ρ c))

/-- Argument 7 at the node region's entry is as launched: no host operation and no window of the edge region writes it. -/
theorem V3_arg7 (c : Dev nD) : W3 m ρ c (Proc.devRef .tc main_arg7) = m ((c : Thread nD τ).loc main_arg7) :=
  (W3_arg7 m ρ c).trans ((W2_of_ne m ρ c main_arg7 (by decide)).trans (W1_arg7 m ρ c))

/-- Argument 8 at the node region's entry is as launched: no host operation and no window of the edge region writes it. -/
theorem V3_arg8 (c : Dev nD) : W3 m ρ c (Proc.devRef .tc main_arg8) = m ((c : Thread nD τ).loc main_arg8) :=
  (W3_arg8 m ρ c).trans ((W2_of_ne m ρ c main_arg8 (by decide)).trans (W1_arg8 m ρ c))

/-- Argument 9 at the node region's entry is as launched: no host operation and no window of the edge region writes it. -/
theorem V3_arg9 (c : Dev nD) : W3 m ρ c (Proc.devRef .tc main_arg9) = m ((c : Thread nD τ).loc main_arg9) :=
  (W3_arg9 m ρ c).trans ((W2_of_ne m ρ c main_arg9 (by decide)).trans (W1_arg9 m ρ c))

/-- Argument 10 at the node region's entry is as launched: no host operation and no window of the edge region writes it. -/
theorem V3_arg10 (c : Dev nD) : W3 m ρ c (Proc.devRef .tc main_arg10) = m ((c : Thread nD τ).loc main_arg10) :=
  (W3_arg10 m ρ c).trans ((W2_of_ne m ρ c main_arg10 (by decide)).trans (W1_arg10 m ρ c))

/-- THE RESULT BUFFER at the last boundary of @main: the layer's output of the argument arrays. -/
theorem result (c : Dev nD) : W4 m ρ c (Proc.devRef .tc main_v15)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W4 m ρ c (Proc.devRef .tc main_v15) = (dat1 (V3 m ρ) c).arrAt 6 cfg1.N from W4_arr m ρ c 6]
  rw [Cert.KernelIdeal.NodeArray.final (V3 m ρ) c]
  show Cert.Spec.nodeOut (W3 m ρ c (Proc.devRef .tc main_arg0)) (W3 m ρ c (Proc.devRef .tc main_v14))
    (W3 m ρ c (Proc.devRef .tc main_arg7)) (W3 m ρ c (Proc.devRef .tc main_arg8)) (W3 m ρ c (Proc.devRef .tc main_arg9))
    (W3 m ρ c (Proc.devRef .tc main_arg10)) = _
  rw [W3_v14, W2_v3, W2_v11, V3_arg0, V3_arg7, V3_arg8, V3_arg9, V3_arg10]
  rfl

/-- The idealized kernel's run: it terminates without a fault, the result buffer ends at the layer's output of the argument
    arrays, and the arguments end as launched. -/
theorem run : θ_run defs (onTc (τ := τ) (main (F := Ideal))) ⟨m, fun _ => 0, ρ⟩ (fun r => ∀ c : Dev nD,
      r.2.mem ((c.tc : Thread nD τ).loc main_v15)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩)
    (Cert.KernelIdeal.ValueRun.run_result m ρ)

end Cert.KernelIdeal.KernelValue

end
-- ==== Proof.RefTerms.lean ====
/-
  Names for four stages of the reference, each exactly the term the reference's run states: the source rows gathered by the
  (wrapped) source indices, every edge's message, the messages summed into their destination nodes, and the final output.
  Each is a definitional abbreviation of a piece of the run's composed term, so that the two dense stages can be read at an
  index separately while the gather and the scatter-add stay unopened: both programs apply the same two operations to the same
  index array, and nothing about them is needed beyond that.
-/
import proofs.«136936_j83348135346321_1_alg».proof.Proof.Gen.ReferenceIdeal.Run

set_option maxRecDepth 8192

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Row e holds the features of edge e's source node: the node features gathered by the source indices (a negative index
    counted from the end). -/
def gathered (V0 : Valuation τ sig (Elt F)) : (⟨S1200000x64, .f32⟩ : BufTy).Contents (Elt F) :=
  (Host.gather gather_S100000x64_S1200000x1_S1200000x64_1_0_n_n_0_1_164 (V0 (Proc.devRef .tc main_arg0)) (broadcastInDim S1200000x1 ![0] bcast_S1200000_S1200000x1_0 (select (cmpi .slt (res_main_v1 V0) (broadcastInDim S1200000 ![] bcast_S_S1200000 (constantI S_ 32 0#32))) (addi (res_main_v1 V0) (broadcastInDim S1200000 ![] bcast_S_S1200000 (constantI S_ 32 100000#32))) (res_main_v1 V0))))

/-- The first affine stage of the edge network, before its activation, is stated over the gathered rows. -/
theorem res_main_v15_eq (V0 : Valuation τ sig (Elt F)) : res_main_v15 V0 =
    addf (Host.dotGeneral dot_S1200000x80_S80x64_S1200000x64_1_0_0_1_n_n none (concatenate S1200000x80 1 [⟨S1200000x64, (gathered V0)⟩, ⟨S1200000x16, (V0 (Proc.devRef .tc main_arg1))⟩] concatenates_S1200000x64_S1200000x16_S1200000x80_d1) (V0 (Proc.devRef .tc main_arg3))) (broadcastInDim S1200000x64 ![0, 1] bcast_S1x64_S1200000x64_0_1 (broadcastInDim S1x64 ![1] bcast_S64_S1x64_1 (V0 (Proc.devRef .tc main_arg4)))) := rfl

/-- Every edge's message. -/
def messages (V0 : Valuation τ sig (Elt F)) : (⟨S1200000x64, .f32⟩ : BufTy).Contents (Elt F) :=
  (addf (Host.dotGeneral dot_S1200000x64_S64x64_S1200000x64_1_0_0_1_n_n none (mulf (res_main_v15 V0) (mulf (broadcastInDim S1200000x64 ![] bcast_S_S1200000x64 (constant S_ .f32 0x3F000000#32)) (addf (broadcastInDim S1200000x64 ![] bcast_S_S1200000x64 (constant S_ .f32 0x3F800000#32)) (Host.tanh (mulf (broadcastInDim S1200000x64 ![] bcast_S_S1200000x64 (constant S_ .f32 0x3F4C422A#32)) (addf (res_main_v15 V0) (mulf (broadcastInDim S1200000x64 ![] bcast_S_S1200000x64 (constant S_ .f32 0x3D372713#32)) (mulf (mulf (res_main_v15 V0) (res_main_v15 V0)) (res_main_v15 V0))))))))) (V0 (Proc.devRef .tc main_arg5))) (broadcastInDim S1200000x64 ![0, 1] bcast_S1x64_S1200000x64_0_1 (broadcastInDim S1x64 ![1] bcast_S64_S1x64_1 (V0 (Proc.devRef .tc main_arg6)))))

/-- The messages added up per destination node, from zero. -/
def aggregated (V0 : Valuation τ sig (Elt F)) : (⟨S100000x64, .f32⟩ : BufTy).Contents (Elt F) :=
  (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (shapeCast _ (extractStridedSlice S1x1200000 ![1, 0] (V0 (Proc.devRef .tc main_arg2)) slices_S2x1200000_S1x1200000_1_0) shapeCasts_S1x1200000_S1200000)) (messages V0))

/-- The affine stage of the node network is stated over the node features and the aggregate. -/
theorem res_main_v40_eq (V0 : Valuation τ sig (Elt F)) : res_main_v40 V0 =
    addf (Host.dotGeneral dot_S100000x128_S128x64_S100000x64_1_0_0_1_n_n none (concatenate S100000x128 1 [⟨S100000x64, (V0 (Proc.devRef .tc main_arg0))⟩, ⟨S100000x64, (aggregated V0)⟩] concatenates_S100000x64_S100000x64_S100000x128_d1) (V0 (Proc.devRef .tc main_arg7))) (broadcastInDim S100000x64 ![0, 1] bcast_S1x64_S100000x64_0_1 (broadcastInDim S1x64 ![1] bcast_S64_S1x64_1 (V0 (Proc.devRef .tc main_arg8)))) := rfl

/-- The result the reference's run states. -/
def output (V0 : Valuation τ sig (Elt F)) : (⟨S100000x64, .f32⟩ : BufTy).Contents (Elt F) :=
  addf (mulf (res_main_v64 V0) (mulf (broadcastInDim S100000x64 ![] bcast_S_S100000x64 (constant S_ .f32 0x3F000000#32)) (addf (broadcastInDim S100000x64 ![] bcast_S_S100000x64 (constant S_ .f32 0x3F800000#32)) (Host.tanh (mulf (broadcastInDim S100000x64 ![] bcast_S_S100000x64 (constant S_ .f32 0x3F4C422A#32)) (addf (res_main_v64 V0) (mulf (broadcastInDim S100000x64 ![] bcast_S_S100000x64 (constant S_ .f32 0x3D372713#32)) (mulf (mulf (res_main_v64 V0) (res_main_v64 V0)) (res_main_v64 V0))))))))) (V0 (Proc.devRef .tc main_arg0))

end Cert.ReferenceIdeal.RefValue

end
-- ==== Proof.RefEdge.lean ====
/-
  The reference's edge stage, read at the extended reals, IS the edge message of the specification over the whole arrays:
  the concatenation of the gathered source rows with the edge features, the host's two matrix products as sums over the one
  contracted axis, the biases broadcast down the rows, and the tanh form of GELU with its cube written (h · h) · h, which is
  the specification's h · (h · h) by commutativity of the product.
-/
import proofs.«136936_j83348135346321_1_alg».proof.Proof.RefTerms
import proofs.«136936_j83348135346321_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

open scoped BigOperators

namespace Cert.ReferenceIdeal.RefValue

open Cert.ReferenceIdeal Cert.ReferenceIdeal.Gen Cert.ReferenceIdeal.Value
open Idealize.ShloMosaic Idealize.ShloMosaic.TcCoe Idealize.ShloMosaic.StableHlo Idealize.ShloMosaic.ValueIdx

/-- A scalar word broadcast to every position reads the word's value. -/
theorem splat_apply (w : BitVec 32) (i : S1200000x64.Idx) :
    broadcastInDim S1200000x64 ![] bcast_S_S1200000x64 (constant (F := Ideal) S_ .f32 w) i = Ideal.ofBits .f32 w := rfl

/-- A vector of 64 laid along the rows, read at row e, column n, is the vector at n. -/
theorem rowBias_apply (b : FVec Ideal S64 .f32) (e : Fin 1200000) (n : Fin 64) :
    broadcastInDim S1200000x64 ![0, 1] bcast_S1x64_S1200000x64_0_1 (broadcastInDim S1x64 ![1] bcast_S64_S1x64_1 b) (ix2 e n) = b (ix1 n) := by
  refine (broadcastInDim_apply ![0, 1] bcast_S1x64_S1200000x64_0_1 _ (ix2 e n) (ix2 (0 : Fin 1) n) ?_).trans ?_
  · intro a
    match a with
    | ⟨0, _⟩ => rfl
    | ⟨1, _⟩ => rfl
  · refine broadcastInDim_apply ![1] bcast_S64_S1x64_1 b (ix2 (0 : Fin 1) n) (ix1 n) ?_
    intro a
    match a with
    | ⟨0, _⟩ => rfl

/-- The two-piece concatenation along the columns, read at row e, column k: the first piece below 64, the second from 64 on. -/
theorem cat_apply (x : FVec Ideal S1200000x64 .f32) (y : FVec Ideal S1200000x16 .f32) (e : Fin 1200000) (k : Fin 80) :
    concatenate S1200000x80 1 [⟨S1200000x64, x⟩, ⟨S1200000x16, y⟩] concatenates_S1200000x64_S1200000x16_S1200000x80_d1 (ix2 e k)
      = Cert.Spec.cat80 (fun c => x (ix2 e c)) (fun c => y (ix2 e c)) k := by
  unfold Cert.Spec.cat80
  by_cases hk : k.val < 64
  · rw [dif_pos hk]
    refine concatenate_pair_apply_left 1 x y concatenates_S1200000x64_S1200000x16_S1200000x80_d1 (ix2 e k) rfl (ix2 e ⟨k.val, hk⟩) ?_
    intro b
    match b with
    | ⟨0, _⟩ => rfl
    | ⟨1, _⟩ => rfl
  · rw [dif_neg hk]
    refine concatenate_pair_apply_right 1 x y concatenates_S1200000x64_S1200000x16_S1200000x80_d1 (ix2 e k) rfl rfl (ix2 e ⟨k.val - 64, by have := k.isLt; omega⟩) ?_ ?_
    · intro b hb
      match b with
      | ⟨0, _⟩ => rfl
      | ⟨1, _⟩ => exact absurd rfl hb
    · show k.val - 64 + 64 = k.val
      omega

/-- The left operand's row coordinate is the output's row. -/
theorem lhs_d1_0 (i : S1200000x64.Idx) (q : dot_S1200000x80_S80x64_S1200000x64_1_0_0_1_n_n.contr.Idx) :
    (dot_S1200000x80_S80x64_S1200000x64_1_0_0_1_n_n.lhsIdx i q 0).val = (i 0).val := by
  unfold DotDims.lhsIdx
  rw [dif_neg (show ¬(0 : Fin S1200000x80.rank) ∈ dot_S1200000x80_S80x64_S1200000x64_1_0_0_1_n_n.lhsBatch by decide), dif_pos (show (0 : Fin S1200000x80.rank) ∈ dot_S1200000x80_S80x64_S1200000x64_1_0_0_1_n_n.lhsNonContracting by decide)]
  rfl
/-- The left operand's column coordinate is the contracted one. -/
theorem lhs_d1_1 (i : S1200000x64.Idx) (q : dot_S1200000x80_S80x64_S1200000x64_1_0_0_1_n_n.contr.Idx) :
    (dot_S1200000x80_S80x64_S1200000x64_1_0_0_1_n_n.lhsIdx i q 1).val = (q ⟨0, by decide⟩).val :=
  dot_S1200000x80_S80x64_S1200000x64_1_0_0_1_n_n.lhsIdx_val_of_single rfl i q
/-- The right operand's row coordinate is the contracted one. -/
theorem rhs_d1_0 (i : S1200000x64.Idx) (q : dot_S1200000x80_S80x64_S1200000x64_1_0_0_1_n_n.contr.Idx) :
    (dot_S1200000x80_S80x64_S1200000x64_1_0_0_1_n_n.rhsIdx i q 0).val = (q ⟨0, by decide⟩).val :=
  dot_S1200000x80_S80x64_S1200000x64_1_0_0_1_n_n.rhsIdx_val_of_single rfl i q
/-- The right operand's column coordinate is the output's column. -/
theorem rhs_d1_1 (i : S1200000x64.Idx) (q : dot_S1200000x80_S80x64_S1200000x64_1_0_0_1_n_n.contr.Idx) :
    (dot_S1200000x80_S80x64_S1200000x64_1_0_0_1_n_n.rhsIdx i q 1).val = (i 1).val := by
  unfold DotDims.rhsIdx
  rw [dif_neg (show ¬(1 : Fin S80x64.rank) ∈ dot_S1200000x80_S80x64_S1200000x64_1_0_0_1_n_n.rhsBatch by decide), dif_pos (show (1 : Fin S80x64.rank) ∈ dot_S1200000x80_S80x64_S1200000x64_1_0_0_1_n_n.rhsNonContracting by decide)]
  rfl

/-- The matrix product at row e, column n: the sum over the 80 contracted positions. -/
theorem d1_apply (l : FVec Ideal S1200000x80 .f32) (r : FVec Ideal S80x64 .f32) (e : Fin 1200000) (n : Fin 64) :
    Host.dotGeneral (F := Ideal) dot_S1200000x80_S80x64_S1200000x64_1_0_0_1_n_n none l r (ix2 e n) = ∑ k : Fin 80, l (ix2 e k) * r (ix2 k n) := by
  simp only [Host.dotGeneral]
  rw [Ideal.dotGeneral_apply, ← Equiv.sum_comp (ValueIdx.contrEquiv1 dot_S1200000x80_S80x64_S1200000x64_1_0_0_1_n_n 80 rfl rfl).symm]
  refine Finset.sum_congr rfl fun k _ => ?_
  have hk := ValueIdx.contrEquiv1_symm_val dot_S1200000x80_S80x64_S1200000x64_1_0_0_1_n_n 80 rfl rfl k
  have el : dot_S1200000x80_S80x64_S1200000x64_1_0_0_1_n_n.lhsIdx (ix2 e n) ((ValueIdx.contrEquiv1 dot_S1200000x80_S80x64_S1200000x64_1_0_0_1_n_n 80 rfl rfl).symm k) = ix2 e k := funext fun a => Fin.ext (by
    match a with
    | ⟨0, _⟩ => exact lhs_d1_0 _ _
    | ⟨1, _⟩ => exact (lhs_d1_1 _ _).trans hk)
  have er : dot_S1200000x80_S80x64_S1200000x64_1_0_0_1_n_n.rhsIdx (ix2 e n) ((ValueIdx.contrEquiv1 dot_S1200000x80_S80x64_S1200000x64_1_0_0_1_n_n 80 rfl rfl).symm k) = ix2 k n := funext fun a => Fin.ext (by
    match a with
    | ⟨0, _⟩ => exact (rhs_d1_0 _ _).trans hk
    | ⟨1, _⟩ => exact rhs_d1_1 _ _)
  rw [el, er]

/-- The left operand's row coordinate is the output's row. -/
theorem lhs_d2_0 (i : S1200000x64.Idx) (q : dot_S1200000x64_S64x64_S1200000x64_1_0_0_1_n_n.contr.Idx) :
    (dot_S1200000x64_S64x64_S1200000x64_1_0_0_1_n_n.lhsIdx i q 0).val = (i 0).val := by
  unfold DotDims.lhsIdx
  rw [dif_neg (show ¬(0 : Fin S1200000x64.rank) ∈ dot_S1200000x64_S64x64_S1200000x64_1_0_0_1_n_n.lhsBatch by decide), dif_pos (show (0 : Fin S1200000x64.rank) ∈ dot_S1200000x64_S64x64_S1200000x64_1_0_0_1_n_n.lhsNonContracting by decide)]
  rfl
/-- The left operand's column coordinate is the contracted one. -/
theorem lhs_d2_1 (i : S1200000x64.Idx) (q : dot_S1200000x64_S64x64_S1200000x64_1_0_0_1_n_n.contr.Idx) :
    (dot_S1200000x64_S64x64_S1200000x64_1_0_0_1_n_n.lhsIdx i q 1).val = (q ⟨0, by decide⟩).val :=
  dot_S1200000x64_S64x64_S1200000x64_1_0_0_1_n_n.lhsIdx_val_of_single rfl i q
/-- The right operand's row coordinate is the contracted one. -/
theorem rhs_d2_0 (i : S1200000x64.Idx) (q : dot_S1200000x64_S64x64_S1200000x64_1_0_0_1_n_n.contr.Idx) :
    (dot_S1200000x64_S64x64_S1200000x64_1_0_0_1_n_n.rhsIdx i q 0).val = (q ⟨0, by decide⟩).val :=
  dot_S1200000x64_S64x64_S1200000x64_1_0_0_1_n_n.rhsIdx_val_of_single rfl i q
/-- The right operand's column coordinate is the output's column. -/
theorem rhs_d2_1 (i : S1200000x64.Idx) (q : dot_S1200000x64_S64x64_S1200000x64_1_0_0_1_n_n.contr.Idx) :
    (dot_S1200000x64_S64x64_S1200000x64_1_0_0_1_n_n.rhsIdx i q 1).val = (i 1).val := by
  unfold DotDims.rhsIdx
  rw [dif_neg (show ¬(1 : Fin S64x64.rank) ∈ dot_S1200000x64_S64x64_S1200000x64_1_0_0_1_n_n.rhsBatch by decide), dif_pos (show (1 : Fin S64x64.rank) ∈ dot_S1200000x64_S64x64_S1200000x64_1_0_0_1_n_n.rhsNonContracting by decide)]
  rfl

/-- The matrix product at row e, column n: the sum over the 64 contracted positions. -/
theorem d2_apply (l : FVec Ideal S1200000x64 .f32) (r : FVec Ideal S64x64 .f32) (e : Fin 1200000) (n : Fin 64) :
    Host.dotGeneral (F := Ideal) dot_S1200000x64_S64x64_S1200000x64_1_0_0_1_n_n none l r (ix2 e n) = ∑ k : Fin 64, l (ix2 e k) * r (ix2 k n) := by
  simp only [Host.dotGeneral]
  rw [Ideal.dotGeneral_apply, ← Equiv.sum_comp (ValueIdx.contrEquiv1 dot_S1200000x64_S64x64_S1200000x64_1_0_0_1_n_n 64 rfl rfl).symm]
  refine Finset.sum_congr rfl fun k _ => ?_
  have hk := ValueIdx.contrEquiv1_symm_val dot_S1200000x64_S64x64_S1200000x64_1_0_0_1_n_n 64 rfl rfl k
  have el : dot_S1200000x64_S64x64_S1200000x64_1_0_0_1_n_n.lhsIdx (ix2 e n) ((ValueIdx.contrEquiv1 dot_S1200000x64_S64x64_S1200000x64_1_0_0_1_n_n 64 rfl rfl).symm k) = ix2 e k := funext fun a => Fin.ext (by
    match a with
    | ⟨0, _⟩ => exact lhs_d2_0 _ _
    | ⟨1, _⟩ => exact (lhs_d2_1 _ _).trans hk)
  have er : dot_S1200000x64_S64x64_S1200000x64_1_0_0_1_n_n.rhsIdx (ix2 e n) ((ValueIdx.contrEquiv1 dot_S1200000x64_S64x64_S1200000x64_1_0_0_1_n_n 64 rfl rfl).symm k) = ix2 k n := funext fun a => Fin.ext (by
    match a with
    | ⟨0, _⟩ => exact (rhs_d2_0 _ _).trans hk
    | ⟨1, _⟩ => exact rhs_d2_1 _ _)
  rw [el, er]

/-- The first affine stage at row e, column n: the row of 80 (source features, then edge features) times the first weight
    matrix, plus the first bias. -/
theorem hidden_apply (G : FVec Ideal S1200000x64 .f32) (a1 : FVec Ideal S1200000x16 .f32) (a3 : FVec Ideal S80x64 .f32)
    (a4 : FVec Ideal S64 .f32) (e : Fin 1200000) (n : Fin 64) :
    addf (Host.dotGeneral (F := Ideal) dot_S1200000x80_S80x64_S1200000x64_1_0_0_1_n_n none (concatenate S1200000x80 1 [⟨S1200000x64, G⟩, ⟨S1200000x16, a1⟩] concatenates_S1200000x64_S1200000x16_S1200000x80_d1) a3) (broadcastInDim S1200000x64 ![0, 1] bcast_S1x64_S1200000x64_0_1 (broadcastInDim S1x64 ![1] bcast_S64_S1x64_1 a4)) (ix2 e n)
      = Cert.Spec.affine (Cert.Spec.cat80 (fun k => G (ix2 e k)) (fun k => a1 (ix2 e k))) (fun k n => a3 (ix2 k n)) (fun n => a4 (ix1 n)) n := by
  rw [addf_apply, d1_apply, rowBias_apply]
  unfold Cert.Spec.affine
  refine congrArg (· + a4 (ix1 n)) (Finset.sum_congr rfl fun k _ => ?_)
  rw [cat_apply]

/-- The activation and the second affine stage at row e, column j, over any array H of first-stage values: the activation is
    the tanh form of GELU with the cube written (h · h) · h, which is the specification's by commutativity. -/
theorem msg_apply (H : FVec Ideal S1200000x64 .f32) (a5 : FVec Ideal S64x64 .f32) (a6 : FVec Ideal S64 .f32)
    (e : Fin 1200000) (j : Fin 64) :
    addf (Host.dotGeneral (F := Ideal) dot_S1200000x64_S64x64_S1200000x64_1_0_0_1_n_n none (mulf H (mulf (broadcastInDim S1200000x64 ![] bcast_S_S1200000x64 (constant S_ .f32 0x3F000000#32)) (addf (broadcastInDim S1200000x64 ![] bcast_S_S1200000x64 (constant S_ .f32 0x3F800000#32)) (Host.tanh (mulf (broadcastInDim S1200000x64 ![] bcast_S_S1200000x64 (constant S_ .f32 0x3F4C422A#32)) (addf H (mulf (broadcastInDim S1200000x64 ![] bcast_S_S1200000x64 (constant S_ .f32 0x3D372713#32)) (mulf (mulf H H) H)))))))) a5) (broadcastInDim S1200000x64 ![0, 1] bcast_S1x64_S1200000x64_0_1 (broadcastInDim S1x64 ![1] bcast_S64_S1x64_1 a6)) (ix2 e j)
      = Cert.Spec.affine (fun n => Cert.Spec.gelu (H (ix2 e n))) (fun n j => a5 (ix2 n j)) (fun n => a6 (ix1 n)) j := by
  rw [addf_apply, d2_apply, rowBias_apply]
  unfold Cert.Spec.affine
  refine congrArg (· + a6 (ix1 j)) (Finset.sum_congr rfl fun n _ => ?_)
  refine congrArg (· * a5 (ix2 n j)) ?_
  exact Cert.Spec.gelu_cube_left (H (ix2 e n))

/-- The first affine stage of the reference at row e, column n, over the gathered rows and the arguments. -/
theorem res_main_v15_apply (V0 : Valuation τ sig (Elt Ideal)) (e : Fin 1200000) (n : Fin 64) :
    res_main_v15 (F := Ideal) V0 (ix2 e n)
      = Cert.Spec.affine (Cert.Spec.cat80 (fun k => gathered V0 (ix2 e k)) (fun k => V0 (Proc.devRef .tc main_arg1) (ix2 e k)))
          (fun k n => V0 (Proc.devRef .tc main_arg3) (ix2 k n)) (fun n => V0 (Proc.devRef .tc main_arg4) (ix1 n)) n := by
  rw [res_main_v15_eq]
  exact hidden_apply (gathered V0) (V0 (Proc.devRef .tc main_arg1)) (V0 (Proc.devRef .tc main_arg3)) (V0 (Proc.devRef .tc main_arg4)) e n

/-- Every edge's message, as the reference computes it, is the specification's edge messages of the gathered source rows,
    the edge features and the four parameters of the edge network. -/
theorem messages_eq (V0 : Valuation τ sig (Elt Ideal)) :
    messages (F := Ideal) V0 = Cert.Spec.edgeMsgs (gathered V0) (V0 (Proc.devRef .tc main_arg1)) (V0 (Proc.devRef .tc main_arg3)) (V0 (Proc.devRef .tc main_arg4)) (V0 (Proc.devRef .tc main_arg5)) (V0 (Proc.devRef .tc main_arg6)) := by
  funext i
  obtain ⟨e, j, rfl⟩ : ∃ (e : Fin 1200000) (j : Fin 64), i = ix2 e j := ⟨i 0, i 1, eq_ix2 i⟩
  unfold messages
  refine (msg_apply (res_main_v15 V0) (V0 (Proc.devRef .tc main_arg5)) (V0 (Proc.devRef .tc main_arg6)) e j).trans ?_
  simp only [res_main_v15_apply]
  rfl

end Cert.ReferenceIdeal.RefValue

end
-- ==== Proof.RefNode.lean ====
/-
  The reference's node stage, read at the extended reals, IS the node update of the specification over the whole arrays:
  the concatenation of the node features with the aggregated messages, the host's matrix product as a sum over the one
  contracted axis, the mean and the variance as the host's sums from zero divided by 64 and broadcast back along the rows, the
  reciprocal square root, scale and bias broadcast down the rows, the tanh form of GELU (its cube written (h · h) · h,
  the specification's h · (h · h) by commutativity), and the node's own feature added back.
-/
import proofs.«136936_j83348135346321_1_alg».proof.Proof.RefTerms
import proofs.«136936_j83348135346321_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

open scoped BigOperators

namespace Cert.ReferenceIdeal.RefValue

open Cert.ReferenceIdeal Cert.ReferenceIdeal.Gen Cert.ReferenceIdeal.Value
open Idealize.ShloMosaic Idealize.ShloMosaic.TcCoe Idealize.ShloMosaic.StableHlo Idealize.ShloMosaic.ValueIdx

namespace NodeStage

/-! ## Layout operations of the node stage read at an index -/

/-- A vector of 64 laid along every row: at (v, n) it is the vector at n. -/
theorem rowBcast_apply (b : FVec Ideal S64 .f32) (v : Fin 100000) (n : Fin 64) :
    broadcastInDim S100000x64 ![0, 1] bcast_S1x64_S100000x64_0_1 (broadcastInDim S1x64 ![1] bcast_S64_S1x64_1 b) (ix2 v n)
      = b (ix1 n) := by
  refine (broadcastInDim_apply _ _ _ (ix2 v n) (ix2 (0 : Fin 1) n) (fun a => ?_)).trans ?_
  · match a with
    | ⟨0, _⟩ => rfl
    | ⟨1, _⟩ => rfl
  · refine broadcastInDim_apply _ _ _ (ix2 (0 : Fin 1) n) (ix1 n) (fun a => ?_)
    match a with
    | ⟨0, _⟩ => rfl

/-- A column of one entry per row laid along the 64 columns: at (v, n) it is the column at (v, 0). -/
theorem colBcast_apply (c : FVec Ideal S100000x1 .f32) (v : Fin 100000) (n : Fin 64) :
    broadcastInDim S100000x64 ![0, 1] bcast_S100000x1_S100000x64_0_1 c (ix2 v n) = c (ix2 v (0 : Fin 1)) := by
  refine broadcastInDim_apply _ _ _ (ix2 v n) (ix2 v (0 : Fin 1)) (fun a => ?_)
  match a with
  | ⟨0, _⟩ => rfl
  | ⟨1, _⟩ => rfl

/-- A vector of one entry per row as a column: at (v, 0) it is the vector at v. -/
theorem asCol_apply (r : FVec Ideal S100000 .f32) (v : Fin 100000) :
    broadcastInDim S100000x1 ![0] bcast_S100000_S100000x1_0 r (ix2 v (0 : Fin 1)) = r (ix1 v) := by
  refine broadcastInDim_apply _ _ _ (ix2 v (0 : Fin 1)) (ix1 v) (fun a => ?_)
  match a with
  | ⟨0, _⟩ => rfl

/-- The two blocks of 64 columns side by side: row v of the concatenation is the row of 128 of the specification. -/
theorem cat_apply (x y : FVec Ideal S100000x64 .f32) (v : Fin 100000) (k : Fin 128) :
    concatenate S100000x128 1 [⟨S100000x64, x⟩, ⟨S100000x64, y⟩] concatenates_S100000x64_S100000x64_S100000x128_d1 (ix2 v k)
      = Cert.Spec.cat128 (fun k => x (ix2 v k)) (fun k => y (ix2 v k)) k := by
  unfold Cert.Spec.cat128
  by_cases h : k.val < 64
  · rw [dif_pos h]
    exact concatenate_pair_apply_left 1 x y _ (ix2 v k) rfl (ix2 v ⟨k.val, h⟩) (fun b => by
      match b with
      | ⟨0, _⟩ => rfl
      | ⟨1, _⟩ => rfl)
  · rw [dif_neg h]
    exact concatenate_pair_apply_right 1 x y _ (ix2 v k) rfl rfl (ix2 v ⟨k.val - 64, by have := k.isLt; omega⟩) (fun b hb => by
      match b, hb with
      | ⟨0, _⟩, _ => rfl
      | ⟨1, _⟩, hb => exact absurd rfl hb) (by show k.val - 64 + 64 = k.val; omega)

/-! ## The matrix product: the sum over the one contracted axis -/

theorem lhs_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl

theorem lhs_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q

theorem rhs_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q

theorem rhs_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product of a [100000, 128] matrix with a [128, 64] one at (v, n): the sum over k of L (v, k) · R (k, n). -/
theorem dot_apply (L : FVec Ideal S100000x128 .f32) (R : FVec Ideal S128x64 .f32) (v : Fin 100000) (n : Fin 64) :
    Host.dotGeneral dot_S100000x128_S128x64_S100000x64_1_0_0_1_n_n none L R (ix2 v n) = ∑ k : Fin 128, L (ix2 v k) * R (ix2 k n) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 v n) ((ValueIdx.contrEquiv1 dot_S100000x128_S128x64_S100000x64_1_0_0_1_n_n 128 rfl rfl).symm k) = ix2 v k := funext fun a => Fin.ext (by
    match a with
    | ⟨0, _⟩ => exact lhs_0 _ _
    | ⟨1, _⟩ => exact (lhs_1 _ _).trans hk)
  have er : dot_S100000x128_S128x64_S100000x64_1_0_0_1_n_n.rhsIdx (ix2 v n) ((ValueIdx.contrEquiv1 dot_S100000x128_S128x64_S100000x64_1_0_0_1_n_n 128 rfl rfl).symm k) = ix2 k n := funext fun a => Fin.ext (by
    match a with
    | ⟨0, _⟩ => exact (rhs_0 _ _).trans hk
    | ⟨1, _⟩ => exact rhs_1 _ _)
  rw [el, er]

/-! ## The host's sum along a row, from zero -/

/-- The host's sum over axis 1 from the zero word, at row v: the sum of the 64 entries of the row. -/
theorem rowSum_apply (X : FVec Ideal S100000x64 .f32) (v : Fin 100000) :
    Host.reduceAdd X (constant (F := Ideal) S_ .f32 0x00000000#32) reducesTo_S100000x64_S100000_d1 h_S_ (ix1 v)
      = ∑ k : Fin 64, X (ix2 v k) := by
  simp only [Host.reduceAdd, Ideal.hostReduceAdd_def]
  rw [Ideal.hostReduceAdd_single reducesTo_S100000x64_S100000_d1 (by decide)]
  refine (congrArg (· + _) (show constant (F := Ideal) S_ .f32 0x00000000#32 _ = (0 : EReal) from Ideal.ofBits_zero_f32)).trans ?_
  rw [zero_add]
  refine Finset.sum_congr rfl fun k _ => ?_
  exact congrArg X (funext fun a => Fin.ext (by
    match a with
    | ⟨0, _⟩ => rfl
    | ⟨1, _⟩ => rfl))

/-! ## The stages of the node network over whole arrays, and each read at an index -/

/-- The affine stage at (v, n): the row of 128 (the node's features, then its aggregate) times the weights, plus the bias. -/
theorem affine_apply (x y : FVec Ideal S100000x64 .f32) (W : FVec Ideal S128x64 .f32) (b : FVec Ideal S64 .f32)
    (v : Fin 100000) (n : Fin 64) :
    addf (Host.dotGeneral dot_S100000x128_S128x64_S100000x64_1_0_0_1_n_n none (concatenate S100000x128 1 [⟨S100000x64, x⟩, ⟨S100000x64, y⟩] concatenates_S100000x64_S100000x64_S100000x128_d1) W)
      (broadcastInDim S100000x64 ![0, 1] bcast_S1x64_S100000x64_0_1 (broadcastInDim S1x64 ![1] bcast_S64_S1x64_1 b)) (ix2 v n)
    = Cert.Spec.affine (Cert.Spec.cat128 (fun k => x (ix2 v k)) (fun k => y (ix2 v k))) (fun k n => W (ix2 k n)) (fun n => b (ix1 n)) n := by
  refine (congrArg₂ (· + ·) (dot_apply _ W v n) (rowBcast_apply b v n)).trans ?_
  unfold Cert.Spec.affine
  refine congrArg (· + _) (Finset.sum_congr rfl fun k _ => ?_)
  rw [cat_apply]

/-- The mean of each row, as a column: the row's sum from zero divided by the word of 64. -/
def muCol (H : FVec Ideal S100000x64 .f32) : FVec Ideal S100000x1 .f32 :=
  Host.divf (broadcastInDim S100000x1 ![0] bcast_S100000_S100000x1_0 (Host.reduceAdd H (constant (F := Ideal) S_ .f32 0x00000000#32) reducesTo_S100000x64_S100000_d1 h_S_)) (broadcastInDim S100000x1 ![] bcast_S_S100000x1 (constant (F := Ideal) S_ .f32 0x42800000#32))

theorem muCol_apply (H : FVec Ideal S100000x64 .f32) (v : Fin 100000) :
    muCol H (ix2 v (0 : Fin 1)) = Cert.Spec.mean64 (fun n => H (ix2 v n)) := by
  show Ideal.div ((broadcastInDim S100000x1 ![0] bcast_S100000_S100000x1_0 (Host.reduceAdd H (constant (F := Ideal) S_ .f32 0x00000000#32) reducesTo_S100000x64_S100000_d1 h_S_)) (ix2 v (0 : Fin 1))) (Ideal.ofBits .f32 0x42800000#32) = _
  rw [asCol_apply, rowSum_apply]
  rfl

/-- The deviations from the row's mean. -/
def devs (H : FVec Ideal S100000x64 .f32) : FVec Ideal S100000x64 .f32 :=
  subf H (broadcastInDim S100000x64 ![0, 1] bcast_S100000x1_S100000x64_0_1 (muCol H))

theorem devs_apply (H : FVec Ideal S100000x64 .f32) (v : Fin 100000) (n : Fin 64) :
    devs H (ix2 v n) = H (ix2 v n) - Cert.Spec.mean64 (fun n => H (ix2 v n)) := by
  show H (ix2 v n) - (broadcastInDim S100000x64 ![0, 1] bcast_S100000x1_S100000x64_0_1 (muCol H)) (ix2 v n) = _
  rw [colBcast_apply, muCol_apply]

/-- The reciprocal square root of each row's variance plus the small constant, as a column; the variance is the mean of the
    squared deviations. -/
def rstdCol (H : FVec Ideal S100000x64 .f32) : FVec Ideal S100000x1 .f32 :=
  Host.rsqrt (addf (Host.divf (broadcastInDim S100000x1 ![0] bcast_S100000_S100000x1_0 (Host.reduceAdd (mulf (devs H) (devs H)) (constant (F := Ideal) S_ .f32 0x00000000#32) reducesTo_S100000x64_S100000_d1 h_S_)) (broadcastInDim S100000x1 ![] bcast_S_S100000x1 (constant (F := Ideal) S_ .f32 0x42800000#32))) (broadcastInDim S100000x1 ![] bcast_S_S100000x1 (constant (F := Ideal) S_ .f32 0x358637BD#32)))

theorem rstdCol_apply (H : FVec Ideal S100000x64 .f32) (v : Fin 100000) :
    rstdCol H (ix2 v (0 : Fin 1))
      = Ideal.rsqrt (Cert.Spec.mean64 (fun n => (H (ix2 v n) - Cert.Spec.mean64 (fun n => H (ix2 v n))) * (H (ix2 v n) - Cert.Spec.mean64 (fun n => H (ix2 v n))))
          + Ideal.ofBits .f32 0x358637BD#32) := by
  show Ideal.rsqrt (Ideal.div ((broadcastInDim S100000x1 ![0] bcast_S100000_S100000x1_0 (Host.reduceAdd (mulf (devs H) (devs H)) (constant (F := Ideal) S_ .f32 0x00000000#32) reducesTo_S100000x64_S100000_d1 h_S_)) (ix2 v (0 : Fin 1))) (Ideal.ofBits .f32 0x42800000#32)
    + Ideal.ofBits .f32 0x358637BD#32) = _
  rw [asCol_apply, rowSum_apply]
  show Ideal.rsqrt (Cert.Spec.mean64 (fun n => devs H (ix2 v n) * devs H (ix2 v n)) + _) = _
  simp only [devs_apply]

/-- The layer normalisation of every row, scaled and shifted. -/
def normed (H : FVec Ideal S100000x64 .f32) (s b : FVec Ideal S64 .f32) : FVec Ideal S100000x64 .f32 :=
  addf (mulf (mulf (subf H (broadcastInDim S100000x64 ![0, 1] bcast_S100000x1_S100000x64_0_1 (muCol H))) (broadcastInDim S100000x64 ![0, 1] bcast_S100000x1_S100000x64_0_1 (rstdCol H))) (broadcastInDim S100000x64 ![0, 1] bcast_S1x64_S100000x64_0_1 (broadcastInDim S1x64 ![1] bcast_S64_S1x64_1 s))) (broadcastInDim S100000x64 ![0, 1] bcast_S1x64_S100000x64_0_1 (broadcastInDim S1x64 ![1] bcast_S64_S1x64_1 b))

theorem normed_apply (H : FVec Ideal S100000x64 .f32) (s b : FVec Ideal S64 .f32) (v : Fin 100000) (q : Fin 64) :
    normed H s b (ix2 v q) = Cert.Spec.lnorm (fun n => H (ix2 v n)) (fun n => s (ix1 n)) (fun n => b (ix1 n)) q := by
  show (H (ix2 v q) - (broadcastInDim S100000x64 ![0, 1] bcast_S100000x1_S100000x64_0_1 (muCol H)) (ix2 v q)) * (broadcastInDim S100000x64 ![0, 1] bcast_S100000x1_S100000x64_0_1 (rstdCol H)) (ix2 v q) * (broadcastInDim S100000x64 ![0, 1] bcast_S1x64_S100000x64_0_1 (broadcastInDim S1x64 ![1] bcast_S64_S1x64_1 s)) (ix2 v q) + (broadcastInDim S100000x64 ![0, 1] bcast_S1x64_S100000x64_0_1 (broadcastInDim S1x64 ![1] bcast_S64_S1x64_1 b)) (ix2 v q) = _
  rw [colBcast_apply, colBcast_apply, rowBcast_apply, rowBcast_apply, muCol_apply, rstdCol_apply]
  rfl

/-- The tanh form of GELU of every entry (its cube written (y · y) · y), plus a residual. -/
def activated (Y r : FVec Ideal S100000x64 .f32) : FVec Ideal S100000x64 .f32 :=
  addf (mulf Y (mulf (broadcastInDim S100000x64 ![] bcast_S_S100000x64 (constant (F := Ideal) S_ .f32 0x3F000000#32)) (addf (broadcastInDim S100000x64 ![] bcast_S_S100000x64 (constant (F := Ideal) S_ .f32 0x3F800000#32)) (Host.tanh (mulf (broadcastInDim S100000x64 ![] bcast_S_S100000x64 (constant (F := Ideal) S_ .f32 0x3F4C422A#32)) (addf Y (mulf (broadcastInDim S100000x64 ![] bcast_S_S100000x64 (constant (F := Ideal) S_ .f32 0x3D372713#32)) (mulf (mulf Y Y) Y)))))))) r

theorem activated_apply (Y r : FVec Ideal S100000x64 .f32) (j : S100000x64.Idx) :
    activated Y r j = Cert.Spec.gelu (Y j) + r j := by
  rw [← Cert.Spec.gelu_cube_left]
  rfl

/-! ## The run's stages are these arrays -/

/-- The normalised stage of the run is the layer normalisation of its affine stage by the two parameter vectors. -/
theorem res_main_v64_eq (V0 : Valuation τ sig (Elt Ideal)) :
    res_main_v64 (F := Ideal) V0 = normed (res_main_v40 V0) (V0 (Proc.devRef .tc main_arg9)) (V0 (Proc.devRef .tc main_arg10)) := rfl

/-- The run's result is the activation of the normalised stage plus the node features. -/
theorem output_eq_activated (V0 : Valuation τ sig (Elt Ideal)) :
    output (F := Ideal) V0 = activated (res_main_v64 V0) (V0 (Proc.devRef .tc main_arg0)) := rfl

/-- Row v of the run's affine stage is the specification's affine map of the row of 128. -/
theorem res_main_v40_row (V0 : Valuation τ sig (Elt Ideal)) (v : Fin 100000) :
    (fun n : Fin 64 => res_main_v40 (F := Ideal) V0 (ix2 v n))
      = Cert.Spec.affine (Cert.Spec.cat128 (fun k => (V0 (Proc.devRef .tc main_arg0)) (ix2 v k)) (fun k => aggregated V0 (ix2 v k)))
          (fun k n => (V0 (Proc.devRef .tc main_arg7)) (ix2 k n)) (fun n => (V0 (Proc.devRef .tc main_arg8)) (ix1 n)) := by
  funext n
  rw [res_main_v40_eq]
  exact affine_apply _ _ _ _ v n

end NodeStage

open NodeStage

/-- The reference's result is the specification's node update of the node features, the aggregated messages and the four
    parameters of the node network. -/
theorem output_eq (V0 : Valuation τ sig (Elt Ideal)) :
    output (F := Ideal) V0 = Cert.Spec.nodeOut (V0 (Proc.devRef .tc main_arg0)) (aggregated V0) (V0 (Proc.devRef .tc main_arg7)) (V0 (Proc.devRef .tc main_arg8)) (V0 (Proc.devRef .tc main_arg9)) (V0 (Proc.devRef .tc main_arg10)) := by
  funext i
  obtain ⟨v, q, rfl⟩ : ∃ (v : Fin 100000) (q : Fin 64), i = ix2 v q := ⟨i 0, i 1, eq_ix2 i⟩
  refine (congrFun (output_eq_activated V0) (ix2 v q)).trans ((activated_apply _ _ _).trans ?_)
  rw [res_main_v64_eq, normed_apply, res_main_v40_row]
  rfl

end Cert.ReferenceIdeal.RefValue

end
-- ==== Proof.lean ====
/-
  A message-passing layer: the Pallas kernel against its jnp reference, over the extended reals.

  Both programs compute, from node features, edge features, an index array (a source and a destination node per edge) and the
  parameters of two small dense networks,

    out = nodeOut node (scatter dst (edgeMsgs (gather node src) edge W1 b1 W2 b2)) W3 b3 scale bias

  where gather takes each edge's source row, edgeMsgs is gelu (x · W1 + b1) · W2 + b2 on the 80-entry rows (source features,
  then edge features), scatter adds the messages up per destination node, and nodeOut is gelu (layernorm (y · W3 + b3)) + node
  on the 128-entry rows (node features, then aggregate). The reference does the two dense stages with whole-array host
  operations; the kernel does each in a pipelined region over blocks of rows (100 blocks of 12000 edges, 10 blocks of 10000
  nodes), with the matrix products in bf16 operands, which on the extended reals are the same sums. The gather and the
  scatter-add are the same host operations of the same index array in both programs and are never opened.

  The pieces: the kernel's two bodies read at an index (EdgeBody, NodeBody), each region's output array as the stage of the
  arrays it found (EdgeArray, NodeArray), the run of @main with the result buffer read at its last boundary (ValueRun) and that
  buffer read back through @main to the arguments (HostReads, KernelValue); the reference's two stages read at an index
  (RefEdge, RefNode) over its generated run. The one algebraic law between the two texts is the commutativity of the product
  (the cube of the activation is written h · (h · h) in the kernel and (h · h) · h in the reference); no finiteness is used.
-/
import proofs.«136936_j83348135346321_1_alg».proof.Defs
import proofs.«136936_j83348135346321_1_alg».proof.Proof.Gen.Kernel
import proofs.«136936_j83348135346321_1_alg».proof.Proof.Gen.Kernel.Frame
import proofs.«136936_j83348135346321_1_alg».proof.Proof.Gen.KernelIdeal
import proofs.«136936_j83348135346321_1_alg».proof.Proof.Gen.KernelIdeal.Frame
import proofs.«136936_j83348135346321_1_alg».proof.Proof.Gen.ReferenceIdeal
import proofs.«136936_j83348135346321_1_alg».proof.Proof.Gen.ReferenceIdeal.Run
import proofs.«136936_j83348135346321_1_alg».proof.Proof.Gen.Pre_finite_inputs
import proofs.«136936_j83348135346321_1_alg».proof.Proof.KernelValue
import proofs.«136936_j83348135346321_1_alg».proof.Proof.RefEdge
import proofs.«136936_j83348135346321_1_alg».proof.Proof.RefNode
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result is the kernel's function of the argument arrays: its node stage is the specification's node update
    of the node features and its aggregate, its aggregate the scatter-add of its messages, its messages the specification's edge
    messages of its gathered rows; and its gather and scatter-add are the kernel's. -/
theorem ref_value (V0 : Valuation Cert.ReferenceIdeal.τ Cert.ReferenceIdeal.sig (Elt Ideal)) :
    Cert.ReferenceIdeal.RefValue.output (F := Ideal) V0
      = Cert.KernelIdeal.KernelValue.value (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) := by
  rw [Cert.ReferenceIdeal.RefValue.output_eq]
  unfold Cert.ReferenceIdeal.RefValue.aggregated
  rw [Cert.ReferenceIdeal.RefValue.messages_eq]
  rfl

/-- From memories that agree on the arguments both idealized programs run to the end, leave their arguments as launched, and
    end with the same result: the layer's output of the argument arrays. -/
theorem algebraic : Cert.algebraic_KernelIdeal_ReferenceIdeal := by
  intro m ρ m' ρ' _ hagree
  refine ⟨fun c => Cert.KernelIdeal.KernelValue.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  show _ = Cert.KernelIdeal.KernelValue.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  rw [← g0, ← g1, ← g2, ← g3, ← g4, ← g5, ← g6, ← g7, ← g8, ← g9, ← g10]
  exact ref_value (StableHlo.launchContents m' c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
